-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x1 .f32) (main_arg15 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg14
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64x64 .f32) (main_arg10 : FVec F S64 .f32) (main_arg11 : FVec F S64x64 .f32) (main_arg12 : FVec F S64x32 .f32) (main_arg13 : FVec F S32 .f32) (main_arg14 : FVec F S32x1 .f32) (main_arg15 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x32 .f32) (main_arg13 : FVec F S32 .f32) (main_arg14 : FVec F S32x1 .f32) (main_arg15 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S128x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x32 .f32) (main_arg13 : FVec F S32 .f32) (main_arg14 : FVec F S32x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S800000x64 : Shape := ⟨2, ![800000, 64]⟩
abbrev S512x64 : Shape := ⟨2, ![512, 64]⟩
abbrev S50000x1 : Shape := ⟨2, ![50000, 1]⟩
abbrev S512x1 : Shape := ⟨2, ![512, 1]⟩
abbrev S1x32 : Shape := ⟨2, ![1, 32]⟩
abbrev S1x1 : Shape := ⟨2, ![1, 1]⟩
abbrev S512x32 : Shape := ⟨2, ![512, 32]⟩
abbrev S512 : Shape := ⟨1, ![512]⟩

abbrev nBuf : Space → Nat
  | .hbm => 79
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S1x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S_, .f32⟩
  | .hbm, ⟨66, _⟩ => ⟨S512x64, .f32⟩
  | .hbm, ⟨67, _⟩ => ⟨S50000x1, .i32⟩
  | .hbm, ⟨68, _⟩ => ⟨S512x64, .f32⟩
  | .hbm, ⟨69, _⟩ => ⟨S_, .f32⟩
  | .hbm, ⟨70, _⟩ => ⟨S50000x1, .f32⟩
  | .hbm, ⟨71, _⟩ => ⟨S_, .f32⟩
  | .hbm, ⟨72, _⟩ => ⟨S512x1, .f32⟩
  | .hbm, ⟨73, _⟩ => ⟨S50000x1, .i32⟩
  | .hbm, ⟨74, _⟩ => ⟨S512x1, .f32⟩
  | .hbm, ⟨75, _⟩ => ⟨S1x32, .f32⟩
  | .hbm, ⟨76, _⟩ => ⟨S1x1, .f32⟩
  | .hbm, ⟨77, _⟩ => ⟨S512x1, .f32⟩
  | .hbm, ⟨78, _⟩ => ⟨S512, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S2000x64, .f32⟩
  | .local _ .vmem, ⟨26, _⟩ => ⟨S2000x64, .f32⟩
  | .local _ .vmem, ⟨27, _⟩ => ⟨S512x64, .f32⟩
  | .local _ .vmem, ⟨28, _⟩ => ⟨S512x1, .f32⟩
  | .local _ .vmem, ⟨29, _⟩ => ⟨S64x32, .f32⟩
  | .local _ .vmem, ⟨30, _⟩ => ⟨S1x32, .f32⟩
  | .local _ .vmem, ⟨31, _⟩ => ⟨S32x1, .f32⟩
  | .local _ .vmem, ⟨32, _⟩ => ⟨S1x1, .f32⟩
  | .local _ .vmem, ⟨33, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  shapeCasts_S32_S1x32 : S32.ShapeCasts S1x32
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x64 : S512x1.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  scatter_S512x64_S50000x1_S50000x64_1_0_0_1_wf : ScatterDims.WF S512x64 S50000x1 S50000x64 [1] [0] [0] 1
  scatter_S512x1_S50000x1_S50000x1_1_0_0_1_wf : ScatterDims.WF S512x1 S50000x1 S50000x1 [1] [0] [0] 1
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1.size a ≤ S512x1.size a
  hwx3_1 : ∀ i : grid3.Coords, EltTy.bits .f32 = 32 ∨ (Rect.block (s := S512x1) S512x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x1.size a ≤ S32x1.size a
  hwx3_4 : ∀ i : grid3.Coords, EltTy.bits .f32 = 32 ∨ (Rect.block (s := S32x1) S32x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x1.size a ≤ S512x1.size a
  hwx3_6 : ∀ i : grid3.Coords, EltTy.bits .f32 = 32 ∨ (Rect.block (s := S512x1) S512x1.size (cc3_transform_6 i) (hinb3_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v46) S512x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S32x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49) S512x1.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S512x64 : Shape := ⟨2, ![512, 64]⟩
abbrev S50000x1 : Shape := ⟨2, ![50000, 1]⟩
abbrev S512x1 : Shape := ⟨2, ![512, 1]⟩
abbrev S512x32 : Shape := ⟨2, ![512, 32]⟩
abbrev S1x32 : Shape := ⟨2, ![1, 32]⟩
abbrev S1x1 : Shape := ⟨2, ![1, 1]⟩
abbrev S512 : Shape := ⟨1, ![512]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x64, .f32⟩
  | .hbm, ⟨34, _⟩ => ⟨S1x64, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S_, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S512x64, .f32⟩
  | .hbm, ⟨88, _⟩ => ⟨S50000x1, .i32⟩
  | .hbm, ⟨89, _⟩ => ⟨S512x64, .f32⟩
  | .hbm, ⟨90, _⟩ => ⟨S_, .f32⟩
  | .hbm, ⟨91, _⟩ => ⟨S50000x1, .f32⟩
  | .hbm, ⟨92, _⟩ => ⟨S_, .f32⟩
  | .hbm, ⟨93, _⟩ => ⟨S512x1, .f32⟩
  | .hbm, ⟨94, _⟩ => ⟨S50000x1, .i32⟩
  | .hbm, ⟨95, _⟩ => ⟨S512x1, .f32⟩
  | .hbm, ⟨96, _⟩ => ⟨S_, .f32⟩
  | .hbm, ⟨97, _⟩ => ⟨S512x1, .f32⟩
  | .hbm, ⟨98, _⟩ => ⟨S512x1, .f32⟩
  | .hbm, ⟨99, _⟩ => ⟨S512x64, .f32⟩
  | .hbm, ⟨100, _⟩ => ⟨S512x64, .f32⟩
  | .hbm, ⟨101, _⟩ => ⟨S512x32, .f32⟩
  | .hbm, ⟨102, _⟩ => ⟨S1x32, .f32⟩
  | .hbm, ⟨103, _⟩ => ⟨S512x32, .f32⟩
  | .hbm, ⟨104, _⟩ => ⟨S512x32, .f32⟩
  | .hbm, ⟨105, _⟩ => ⟨S_, .f32⟩
  | .hbm, ⟨106, _⟩ => ⟨S512x32, .f32⟩
  | .hbm, ⟨107, _⟩ => ⟨S512x32, .f32⟩
  | .hbm, ⟨108, _⟩ => ⟨S512x1, .f32⟩
  | .hbm, ⟨109, _⟩ => ⟨S1x1, .f32⟩
  | .hbm, ⟨110, _⟩ => ⟨S512x1, .f32⟩
  | .hbm, ⟨111, _⟩ => ⟨S512x1, .f32⟩
  | .hbm, ⟨112, _⟩ => ⟨S512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_cst : Ref sig .tc := ⟨.hbm, 39, rfl⟩
abbrev main_call0_v0 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_cst : Ref sig .tc := ⟨.hbm, 61, rfl⟩
abbrev main_call1_v0 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_cst : Ref sig .tc := ⟨.hbm, 83, rfl⟩
abbrev main_call2_v0 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call3_cst : Ref sig .tc := ⟨.hbm, 105, rfl⟩
abbrev main_call3_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512x1_S50000x1_S50000x1_1_0_0_1_wf : ScatterDims.WF S512x1 S50000x1 S50000x1 [1] [0] [0] 1
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

class Facts : Prop extends Facts₀ where

variable [Facts]
-- ==== Proof.Layers.lean ====
/-
  One GraphConv network on whole arrays, written once as a composition of named stages.

  A layer is  h' = max((A · W_rel + b) + h · W_root, 0)  where  A = segment_sum(h[src], dst)  is the sum, into each
  destination node's row, of the rows of `h` at the source nodes of its incoming edges (a gather followed by a
  scatter-add from zero). Three layers are followed by the mean over each graph's nodes — the per-graph sum divided by
  max(count, 1) — and a two-layer perceptron  max(p · W1 + b1, 0) · W2 + b2,  flattened to one value per graph.

  The stages are stated over the host operations themselves (gather, scatter-add, dot_general, broadcasts), so the
  host program that computes the network IS this composition, operation for operation; a program that computes a
  layer's dense part some other way (block by block) is compared with `conv128` / `conv64` / `head` only.
-/
import proofs.«123539_j15650860827313_1_alg».proof.Proof.Gen.ReferenceIdeal

noncomputable section

namespace Cert.Net

open Idealize.ShloMosaic Idealize.ShloMosaic.TcCoe Cert.ReferenceIdeal Cert.ReferenceIdeal.Gen

variable {F : FTy → Type} [FloatOps F]

/-- Row 0 of the edge list: each edge's source node. -/
abbrev srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: each edge's destination node. -/
abbrev dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's index column: the source node, a negative id counted from the end (id + 50000). -/
def srcCol (e : (⟨S2x800000, .i32⟩ : BufTy).Contents (Elt F)) : (⟨S800000x1, .i32⟩ : BufTy).Contents (Elt F) :=
  broadcastInDim S800000x1 ![0] bcast_S800000_S800000x1_0
    (select (cmpi .slt (srcOf (F := F) e) (broadcastInDim S800000 ![] bcast_S_S800000 (constantI S_ 32 0#32)))
      (addi (srcOf (F := F) e) (broadcastInDim S800000 ![] bcast_S_S800000 (constantI S_ 32 50000#32))) (srcOf (F := F) e))

/-- The scatter's index column: the destination node. -/
def dstCol (e : (⟨S2x800000, .i32⟩ : BufTy).Contents (Elt F)) : (⟨S800000x1, .i32⟩ : BufTy).Contents (Elt F) :=
  broadcastInDim S800000x1 ![0] bcast_S800000_S800000x1_0 (dstOf (F := F) e)

/-- Neighbour sums of 128-wide rows: from zero, add row src(k) of `h` into row dst(k), for every edge k. -/
def agg128 (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol (F := F) e)
    (Host.gather gather_S50000x128_S800000x1_S800000x128_1_0_n_n_0_1_1128 h (srcCol (F := F) e))

/-- Neighbour sums of 64-wide rows. -/
def agg64 (h : (⟨S50000x64, .f32⟩ : BufTy).Contents (Elt F)) (e : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (dstCol (F := F) e)
    (Host.gather gather_S50000x64_S800000x1_S800000x64_1_0_n_n_0_1_164 h (srcCol (F := F) e))

/-- A bias vector as one row. -/
abbrev row64 (b : (⟨S64, .f32⟩ : BufTy).Contents (Elt F)) : (⟨S1x64, .f32⟩ : BufTy).Contents (Elt F) :=
  broadcastInDim S1x64 ![1] bcast_S64_S1x64_1 b
abbrev row32 (b : (⟨S32, .f32⟩ : BufTy).Contents (Elt F)) : (⟨S1x32, .f32⟩ : BufTy).Contents (Elt F) :=
  broadcastInDim S1x32 ![1] bcast_S32_S1x32_1 b
abbrev row1 (b : (⟨S1, .f32⟩ : BufTy).Contents (Elt F)) : (⟨S1x1, .f32⟩ : BufTy).Contents (Elt F) :=
  broadcastInDim S1x1 ![1] bcast_S1_S1x1_1 b

/-- The dense part of a layer on 128-wide inputs: max((A · W + b) + h · W', 0), the bias row repeated down the nodes. -/
def conv128 (A h : (⟨S50000x128, .f32⟩ : BufTy).Contents (Elt F)) (W : (⟨S128x64, .f32⟩ : BufTy).Contents (Elt F))
    (b : (⟨S1x64, .f32⟩ : BufTy).Contents (Elt F)) (W' : (⟨S128x64, .f32⟩ : BufTy).Contents (Elt F)) :
    (⟨S50000x64, .f32⟩ : BufTy).Contents (Elt F) :=
  maximumf (addf (addf (Host.dotGeneral dot_S50000x128_S128x64_S50000x64_1_0_0_1_n_n none A W)
      (broadcastInDim S50000x64 ![0, 1] bcast_S1x64_S50000x64_0_1 b))
    (Host.dotGeneral dot_S50000x128_S128x64_S50000x64_1_0_0_1_n_n none h W'))
    (broadcastInDim S50000x64 ![] bcast_S_S50000x64 (constant S_ .f32 0x00000000#32))

/-- The dense part of a layer on 64-wide inputs. -/
def conv64 (A h : (⟨S50000x64, .f32⟩ : BufTy).Contents (Elt F)) (W : (⟨S64x64, .f32⟩ : BufTy).Contents (Elt F))
    (b : (⟨S1x64, .f32⟩ : BufTy).Contents (Elt F)) (W' : (⟨S64x64, .f32⟩ : BufTy).Contents (Elt F)) :
    (⟨S50000x64, .f32⟩ : BufTy).Contents (Elt F) :=
  maximumf (addf (addf (Host.dotGeneral dot_S50000x64_S64x64_S50000x64_1_0_0_1_n_n none A W)
      (broadcastInDim S50000x64 ![0, 1] bcast_S1x64_S50000x64_0_1 b))
    (Host.dotGeneral dot_S50000x64_S64x64_S50000x64_1_0_0_1_n_n none h W'))
    (broadcastInDim S50000x64 ![] bcast_S_S50000x64 (constant S_ .f32 0x00000000#32))

/-- Per-graph sums of the node rows: from zero, add node n's row into row graph(n). -/
def graphSums (h : (⟨S50000x64, .f32⟩ : BufTy).Contents (Elt F)) (g : (⟨S50000, .i32⟩ : BufTy).Contents (Elt F)) :
    (⟨S512x64, .f32⟩ : BufTy).Contents (Elt F) :=
  Host.scatterAdd scatter_S512x64_S50000x1_S50000x64_1_0_0_1
    (broadcastInDim S512x64 ![] bcast_S_S512x64 (constant S_ .f32 0x00000000#32))
    (broadcastInDim S50000x1 ![0] bcast_S50000_S50000x1_0 g) h

/-- Per-graph node counts: the same scatter-add of a column of ones. -/
def graphCounts (g : (⟨S50000, .i32⟩ : BufTy).Contents (Elt F)) : (⟨S512x1, .f32⟩ : BufTy).Contents (Elt F) :=
  Host.scatterAdd scatter_S512x1_S50000x1_S50000x1_1_0_0_1
    (broadcastInDim S512x1 ![] bcast_S_S512x1 (constant S_ .f32 0x00000000#32))
    (broadcastInDim S50000x1 ![0] bcast_S50000_S50000x1_0 g)
    (broadcastInDim S50000x1 ![] bcast_S_S50000x1 (constant S_ .f32 0x3F800000#32))

/-- Mean pooling and the perceptron: p = sums / max(counts, 1) along each row, then max(p · W1 + b1, 0) · W2 + b2. -/
def head (sums : (⟨S512x64, .f32⟩ : BufTy).Contents (Elt F)) (cnts : (⟨S512x1, .f32⟩ : BufTy).Contents (Elt F))
    (W1 : (⟨S64x32, .f32⟩ : BufTy).Contents (Elt F)) (b1 : (⟨S1x32, .f32⟩ : BufTy).Contents (Elt F))
    (W2 : (⟨S32x1, .f32⟩ : BufTy).Contents (Elt F)) (b2 : (⟨S1x1, .f32⟩ : BufTy).Contents (Elt F)) :
    (⟨S512x1, .f32⟩ : BufTy).Contents (Elt F) :=
  addf (Host.dotGeneral dot_S512x32_S32x1_S512x1_1_0_0_1_n_n none
      (maximumf (addf (Host.dotGeneral dot_S512x64_S64x32_S512x32_1_0_0_1_n_n none
            (Host.divf sums (broadcastInDim S512x64 ![0, 1] bcast_S512x1_S512x64_0_1
              (maximumf cnts (broadcastInDim S512x1 ![] bcast_S_S512x1 (constant S_ .f32 0x3F800000#32))))) W1)
          (broadcastInDim S512x32 ![0, 1] bcast_S1x32_S512x32_0_1 b1))
        (broadcastInDim S512x32 ![] bcast_S_S512x32 (constant S_ .f32 0x00000000#32))) W2)
    (broadcastInDim S512x1 ![0, 1] bcast_S1x1_S512x1_0_1 b2)

/-- The whole network: three layers over the same edge list, pooling by graph, the perceptron, one value per graph. -/
def net (x : (⟨S50000x128, .f32⟩ : BufTy).Contents (Elt F)) (e : (⟨S2x800000, .i32⟩ : BufTy).Contents (Elt F))
    (g : (⟨S50000, .i32⟩ : BufTy).Contents (Elt F))
    (W3 : (⟨S128x64, .f32⟩ : BufTy).Contents (Elt F)) (b4 : (⟨S64, .f32⟩ : BufTy).Contents (Elt F)) (W5 : (⟨S128x64, .f32⟩ : BufTy).Contents (Elt F))
    (W6 : (⟨S64x64, .f32⟩ : BufTy).Contents (Elt F)) (b7 : (⟨S64, .f32⟩ : BufTy).Contents (Elt F)) (W8 : (⟨S64x64, .f32⟩ : BufTy).Contents (Elt F))
    (W9 : (⟨S64x64, .f32⟩ : BufTy).Contents (Elt F)) (b10 : (⟨S64, .f32⟩ : BufTy).Contents (Elt F)) (W11 : (⟨S64x64, .f32⟩ : BufTy).Contents (Elt F))
    (W12 : (⟨S64x32, .f32⟩ : BufTy).Contents (Elt F)) (b13 : (⟨S32, .f32⟩ : BufTy).Contents (Elt F))
    (W14 : (⟨S32x1, .f32⟩ : BufTy).Contents (Elt F)) (b15 : (⟨S1, .f32⟩ : BufTy).Contents (Elt F)) :
    (⟨S512, .f32⟩ : BufTy).Contents (Elt F) :=
  shapeCast _ (head (F := F)
    (graphSums (F := F)
      (conv64 (F := F)
        (agg64 (F := F) (conv64 (F := F) (agg64 (F := F) (conv128 (F := F) (agg128 (F := F) x e) x W3 (row64 (F := F) b4) W5) e)
          (conv128 (F := F) (agg128 (F := F) x e) x W3 (row64 (F := F) b4) W5) W6 (row64 (F := F) b7) W8) e)
        (conv64 (F := F) (agg64 (F := F) (conv128 (F := F) (agg128 (F := F) x e) x W3 (row64 (F := F) b4) W5) e)
          (conv128 (F := F) (agg128 (F := F) x e) x W3 (row64 (F := F) b4) W5) W6 (row64 (F := F) b7) W8)
        W9 (row64 (F := F) b10) W11) g)
    (graphCounts (F := F) g) W12 (row32 (F := F) b13) W14 (row1 (F := F) b15)) shapeCasts_S512x1_S512

end Cert.Net

end
-- ==== Proof.RefNet.lean ====
/-
  The host program that computes the network directly: its result, as a term of its arguments, is the composition
  `Cert.Net.net` of the named stages, operation for operation.
-/
import proofs.«123539_j15650860827313_1_alg».proof.Proof.Gen.ReferenceIdeal.Run
import proofs.«123539_j15650860827313_1_alg».proof.Proof.Layers

noncomputable section

namespace Cert.ReferenceIdeal.RefNet

open Idealize.ShloMosaic Idealize.ShloMosaic.TcCoe Idealize.SL.Sem Cert.ReferenceIdeal Cert.ReferenceIdeal.Value

variable {F : FTy → Type} [FloatOps F]

set_option maxRecDepth 8192 in
/-- The run's result term is the network of the launch contents of the sixteen arguments. -/
theorem result_eq_net (m : (ℓ : Loc nD τ sig) → Buf (Elt F) ℓ) (c : Dev nD) :
    res_main_v75 (F := F) m c = Cert.Net.net (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) := by
  unfold res_main_v75 Cert.Net.net Cert.Net.head Cert.Net.graphSums Cert.Net.graphCounts Cert.Net.conv64 Cert.Net.conv128
    Cert.Net.agg64 Cert.Net.agg128 Cert.Net.srcCol Cert.Net.dstCol
  rfl

end Cert.ReferenceIdeal.RefNet

end
-- ==== Proof.HostFold.lean ====
/-
  The program's host operations between its four pipelined calls, read as values.

  The run leaves the buffers at a fold of boundary contents: W0 the launch memory, W1 after the first host stretch, W2
  after the first call (its output array at what the call's write-backs leave, every other buffer as before), and so on
  to W9. Read backwards from the result buffer, the fold is the network: the result is the reshape of the last call's
  output; that call's operands are the per-graph sums and counts of the third layer's output and four parameters; the
  third layer's call reads the neighbour sums of the second layer's output and that output; and so on down to the node
  features. The edge list's two rows (sources, destinations) are computed once, in the first stretch, and read again by
  the second and third; no stretch and no call writes an argument, and a call writes only its output array, so every
  such buffer holds at a later boundary what it held before.

  Each call's output is taken here from a hypothesis (its array after the call as a whole-array function of the
  arrays at entry), so that this module is independent of how those are proved. A bias enters a call as the reshape
  of the vector to one row, which is the same row as the broadcast that repeats the vector along a new leading axis.
-/
import proofs.«123539_j15650860827313_1_alg».proof.Proof.KernelIdealFrameP
import proofs.«123539_j15650860827313_1_alg».proof.Proof.Layers
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.HostFold

open Idealize.ShloMosaic Idealize.ShloMosaic.TcCoe Idealize.SL.Sem Cert.KernelIdeal Cert.KernelIdeal.Gen

/-! ## A vector reshaped to one row is the vector repeated along a new leading axis of extent one -/

theorem reshape_row64 (b : (⟨1, ![64]⟩ : Shape).Idx → EReal) (h : (⟨1, ![64]⟩ : Shape).ShapeCasts ⟨2, ![1, 64]⟩)
    (h' : (⟨1, ![64]⟩ : Shape).BroadcastsInDim ⟨2, ![1, 64]⟩ (![1] : Fin 1 → Fin 2)) :
    shapeCast ⟨2, ![1, 64]⟩ b h = broadcastInDim ⟨2, ![1, 64]⟩ ![1] h' b := by
  funext j
  rw [shapeCast_addUnit_apply ![64] b h j,
    broadcastInDim_apply (![1] : Fin 1 → Fin 2) h' b j (fun a => j a.succ) (fun a => by
      match a with
      | ⟨0, _⟩ => rfl)]

theorem reshape_row32 (b : (⟨1, ![32]⟩ : Shape).Idx → EReal) (h : (⟨1, ![32]⟩ : Shape).ShapeCasts ⟨2, ![1, 32]⟩)
    (h' : (⟨1, ![32]⟩ : Shape).BroadcastsInDim ⟨2, ![1, 32]⟩ (![1] : Fin 1 → Fin 2)) :
    shapeCast ⟨2, ![1, 32]⟩ b h = broadcastInDim ⟨2, ![1, 32]⟩ ![1] h' b := by
  funext j
  rw [shapeCast_addUnit_apply ![32] b h j,
    broadcastInDim_apply (![1] : Fin 1 → Fin 2) h' b j (fun a => j a.succ) (fun a => by
      match a with
      | ⟨0, _⟩ => rfl)]

theorem reshape_row1 (b : (⟨1, ![1]⟩ : Shape).Idx → EReal) (h : (⟨1, ![1]⟩ : Shape).ShapeCasts ⟨2, ![1, 1]⟩)
    (h' : (⟨1, ![1]⟩ : Shape).BroadcastsInDim ⟨2, ![1, 1]⟩ (![1] : Fin 1 → Fin 2)) :
    shapeCast ⟨2, ![1, 1]⟩ b h = broadcastInDim ⟨2, ![1, 1]⟩ ![1] h' b := by
  funext j
  rw [shapeCast_addUnit_apply ![1] b h j,
    broadcastInDim_apply (![1] : Fin 1 → Fin 2) h' b j (fun a => j a.succ) (fun a => by
      match a with
      | ⟨0, _⟩ =>
        have h1 : (j 1).val < 1 := (j 1).isLt
        show (j 1).val = 0
        omega)]

/-! ## The layers' outputs as terms of the arguments -/

variable (m : (ℓ : Loc nD τ sig) → Buf (Elt Ideal) ℓ) (ρ : Dev nD → PrngReg) (c : Dev nD)

/-- The first layer's output: the dense part of the neighbour sums of the node features and of the features. -/
abbrev h1 : (⟨Cert.ReferenceIdeal.S50000x64, .f32⟩ : BufTy).Contents (Elt Ideal) :=
  Cert.Net.conv128 (F := Ideal) (Cert.Net.agg128 (F := Ideal) (m ((c : Thread nD τ).loc main_arg0)) (m ((c : Thread nD τ).loc main_arg1))) (m ((c : Thread nD τ).loc main_arg0)) (m ((c : Thread nD τ).loc main_arg3)) (Cert.Net.row64 (F := Ideal) (m ((c : Thread nD τ).loc main_arg4))) (m ((c : Thread nD τ).loc main_arg5))
/-- The second layer's output. -/
abbrev h2 : (⟨Cert.ReferenceIdeal.S50000x64, .f32⟩ : BufTy).Contents (Elt Ideal) :=
  Cert.Net.conv64 (F := Ideal) (Cert.Net.agg64 (F := Ideal) (h1 m c) (m ((c : Thread nD τ).loc main_arg1))) (h1 m c) (m ((c : Thread nD τ).loc main_arg6)) (Cert.Net.row64 (F := Ideal) (m ((c : Thread nD τ).loc main_arg7))) (m ((c : Thread nD τ).loc main_arg8))
/-- The third layer's output. -/
abbrev h3 : (⟨Cert.ReferenceIdeal.S50000x64, .f32⟩ : BufTy).Contents (Elt Ideal) :=
  Cert.Net.conv64 (F := Ideal) (Cert.Net.agg64 (F := Ideal) (h2 m c) (m ((c : Thread nD τ).loc main_arg1))) (h2 m c) (m ((c : Thread nD τ).loc main_arg9)) (Cert.Net.row64 (F := Ideal) (m ((c : Thread nD τ).loc main_arg10))) (m ((c : Thread nD τ).loc main_arg11))

/-- A buffer that no operation of a host stretch writes holds after the stretch what it held before it. -/
macro "untouched" : tactic => `(tactic| exact StableHlo.after_of_forall_not_mem _ _ (List.forall_iff_forall_mem.mp (by
    simp only [hostOps0, hostOps1, hostOps2, hostOps3, hostOps4, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## After the first stretch: the edge list's rows, the first neighbour sums, the first bias row -/

theorem W1_v1 : W1 m ρ c (Proc.devRef .tc main_v1) = Cert.Net.srcOf (F := Ideal) (m ((c : Thread nD τ).loc main_arg1)) := by
  show StableHlo.after hostOps0 (W0 m ρ c) (Proc.devRef .tc main_v1) = _
  after_results
  rfl

theorem W1_v3 : W1 m ρ c (Proc.devRef .tc main_v3) = Cert.Net.dstOf (F := Ideal) (m ((c : Thread nD τ).loc main_arg1)) := by
  show StableHlo.after hostOps0 (W0 m ρ c) (Proc.devRef .tc main_v3) = _
  after_results
  rfl

set_option maxHeartbeats 4000000 in
theorem W1_v13 : W1 m ρ c (Proc.devRef .tc main_v13) = Cert.Net.agg128 (F := Ideal) (m ((c : Thread nD τ).loc main_arg0)) (m ((c : Thread nD τ).loc main_arg1)) := by
  show StableHlo.after hostOps0 (W0 m ρ c) (Proc.devRef .tc main_v13) = _
  after_results_simp
  rfl

theorem W1_v14 : W1 m ρ c (Proc.devRef .tc main_v14) = Cert.Net.row64 (F := Ideal) (m ((c : Thread nD τ).loc main_arg4)) := by
  show StableHlo.after hostOps0 (W0 m ρ c) (Proc.devRef .tc main_v14) = _
  after_results
  exact reshape_row64 _ _ _

theorem W1_arg0 : W1 m ρ c (Proc.devRef .tc main_arg0) = m ((c : Thread nD τ).loc main_arg0) :=
    calc W1 m ρ c (Proc.devRef .tc main_arg0)
      _ = W0 m ρ c (Proc.devRef .tc main_arg0) := by untouched
      _ = m ((c : Thread nD τ).loc main_arg0) := rfl
theorem W1_arg3 : W1 m ρ c (Proc.devRef .tc main_arg3) = m ((c : Thread nD τ).loc main_arg3) :=
    calc W1 m ρ c (Proc.devRef .tc main_arg3)
      _ = W0 m ρ c (Proc.devRef .tc main_arg3) := by untouched
      _ = m ((c : Thread nD τ).loc main_arg3) := rfl
theorem W1_arg5 : W1 m ρ c (Proc.devRef .tc main_arg5) = m ((c : Thread nD τ).loc main_arg5) :=
    calc W1 m ρ c (Proc.devRef .tc main_arg5)
      _ = W0 m ρ c (Proc.devRef .tc main_arg5) := by untouched
      _ = m ((c : Thread nD τ).loc main_arg5) := rfl

/-! ## After the first call -/

section
variable (r0 : ∀ (V : (c : Dev nD) → (b : Ref sig .tc) → Buf (Elt Ideal) ((c : Thread nD τ).loc b)) (c : Dev nD),
      (dat0 (F := Ideal) V c).arrAt 5 cfg0.N
        = Cert.Net.conv128 (F := Ideal) (V c main_v13) (V c main_arg0) (V c main_arg3) (V c main_v14) (V c main_arg5))
include r0

theorem W2_v15 : W2 m ρ c (Proc.devRef .tc main_v15) = h1 m c := by
  refine (W2_arr m ρ c 5).trans ((r0 (V1 m ρ) c).trans ?_)
  show Cert.Net.conv128 (F := Ideal) (W1 m ρ c (Proc.devRef .tc main_v13)) (W1 m ρ c (Proc.devRef .tc main_arg0)) (W1 m ρ c (Proc.devRef .tc main_arg3)) (W1 m ρ c (Proc.devRef .tc main_v14)) (W1 m ρ c (Proc.devRef .tc main_arg5)) = _
  rw [W1_v13, W1_arg0, W1_arg3, W1_v14, W1_arg5]

end

theorem W2_v1 : W2 m ρ c (Proc.devRef .tc main_v1) = Cert.Net.srcOf (F := Ideal) (m ((c : Thread nD τ).loc main_arg1)) :=
  (W2_of_ne m ρ c main_v1 (by decide)).trans (W1_v1 m ρ c)
theorem W2_v3 : W2 m ρ c (Proc.devRef .tc main_v3) = Cert.Net.dstOf (F := Ideal) (m ((c : Thread nD τ).loc main_arg1)) :=
  (W2_of_ne m ρ c main_v3 (by decide)).trans (W1_v3 m ρ c)
theorem W2_arg7 : W2 m ρ c (Proc.devRef .tc main_arg7) = m ((c : Thread nD τ).loc main_arg7) :=
    calc W2 m ρ c (Proc.devRef .tc main_arg7)
      _ = W1 m ρ c (Proc.devRef .tc main_arg7) := W2_of_ne m ρ c main_arg7 (by decide)
      _ = W0 m ρ c (Proc.devRef .tc main_arg7) := by untouched
      _ = m ((c : Thread nD τ).loc main_arg7) := rfl

/-! ## After the second stretch: the second neighbour sums, from the first layer's output and the same edge rows -/

section
variable (r0 : ∀ (V : (c : Dev nD) → (b : Ref sig .tc) → Buf (Elt Ideal) ((c : Thread nD τ).loc b)) (c : Dev nD),
      (dat0 (F := Ideal) V c).arrAt 5 cfg0.N
        = Cert.Net.conv128 (F := Ideal) (V c main_v13) (V c main_arg0) (V c main_arg3) (V c main_v14) (V c main_arg5))
include r0

set_option maxHeartbeats 4000000 in
theorem W3_v25 : W3 m ρ c (Proc.devRef .tc main_v25) = Cert.Net.agg64 (F := Ideal) (h1 m c) (m ((c : Thread nD τ).loc main_arg1)) := by
  show StableHlo.after hostOps1 (W2 m ρ c) (Proc.devRef .tc main_v25) = _
  after_results_simp
  rw [W2_v1, W2_v3, W2_v15 m ρ c r0]
  rfl

theorem W3_v15 : W3 m ρ c (Proc.devRef .tc main_v15) = h1 m c :=
  (show W3 m ρ c (Proc.devRef .tc main_v15) = W2 m ρ c (Proc.devRef .tc main_v15) by untouched).trans (W2_v15 m ρ c r0)

end

set_option maxHeartbeats 4000000 in
theorem W3_v26 : W3 m ρ c (Proc.devRef .tc main_v26) = Cert.Net.row64 (F := Ideal) (m ((c : Thread nD τ).loc main_arg7)) := by
  show StableHlo.after hostOps1 (W2 m ρ c) (Proc.devRef .tc main_v26) = _
  after_results_simp
  rw [W2_arg7]
  exact reshape_row64 _ _ _

theorem W3_arg6 : W3 m ρ c (Proc.devRef .tc main_arg6) = m ((c : Thread nD τ).loc main_arg6) :=
    calc W3 m ρ c (Proc.devRef .tc main_arg6)
      _ = W2 m ρ c (Proc.devRef .tc main_arg6) := by untouched
      _ = W1 m ρ c (Proc.devRef .tc main_arg6) := W2_of_ne m ρ c main_arg6 (by decide)
      _ = W0 m ρ c (Proc.devRef .tc main_arg6) := by untouched
      _ = m ((c : Thread nD τ).loc main_arg6) := rfl
theorem W3_arg8 : W3 m ρ c (Proc.devRef .tc main_arg8) = m ((c : Thread nD τ).loc main_arg8) :=
    calc W3 m ρ c (Proc.devRef .tc main_arg8)
      _ = W2 m ρ c (Proc.devRef .tc main_arg8) := by untouched
      _ = W1 m ρ c (Proc.devRef .tc main_arg8) := W2_of_ne m ρ c main_arg8 (by decide)
      _ = W0 m ρ c (Proc.devRef .tc main_arg8) := by untouched
      _ = m ((c : Thread nD τ).loc main_arg8) := rfl

/-! ## After the second call -/

section
variable (r0 : ∀ (V : (c : Dev nD) → (b : Ref sig .tc) → Buf (Elt Ideal) ((c : Thread nD τ).loc b)) (c : Dev nD),
      (dat0 (F := Ideal) V c).arrAt 5 cfg0.N
        = Cert.Net.conv128 (F := Ideal) (V c main_v13) (V c main_arg0) (V c main_arg3) (V c main_v14) (V c main_arg5))
  (r1 : ∀ (V : (c : Dev nD) → (b : Ref sig .tc) → Buf (Elt Ideal) ((c : Thread nD τ).loc b)) (c : Dev nD),
      (dat1 (F := Ideal) V c).arrAt 5 cfg1.N
        = Cert.Net.conv64 (F := Ideal) (V c main_v25) (V c main_v15) (V c main_arg6) (V c main_v26) (V c main_arg8))
include r0 r1

theorem W4_v27 : W4 m ρ c (Proc.devRef .tc main_v27) = h2 m c := by
  refine (W4_arr m ρ c 5).trans ((r1 (V3 m ρ) c).trans ?_)
  show Cert.Net.conv64 (F := Ideal) (W3 m ρ c (Proc.devRef .tc main_v25)) (W3 m ρ c (Proc.devRef .tc main_v15)) (W3 m ρ c (Proc.devRef .tc main_arg6)) (W3 m ρ c (Proc.devRef .tc main_v26)) (W3 m ρ c (Proc.devRef .tc main_arg8)) = _
  rw [W3_v25 m ρ c r0, W3_v15 m ρ c r0, W3_arg6, W3_v26, W3_arg8]

end

theorem W4_v1 : W4 m ρ c (Proc.devRef .tc main_v1) = Cert.Net.srcOf (F := Ideal) (m ((c : Thread nD τ).loc main_arg1)) :=
    calc W4 m ρ c (Proc.devRef .tc main_v1)
      _ = W3 m ρ c (Proc.devRef .tc main_v1) := W4_of_ne m ρ c main_v1 (by decide)
      _ = W2 m ρ c (Proc.devRef .tc main_v1) := by untouched
      _ = _ := W2_v1 m ρ c
theorem W4_v3 : W4 m ρ c (Proc.devRef .tc main_v3) = Cert.Net.dstOf (F := Ideal) (m ((c : Thread nD τ).loc main_arg1)) :=
    calc W4 m ρ c (Proc.devRef .tc main_v3)
      _ = W3 m ρ c (Proc.devRef .tc main_v3) := W4_of_ne m ρ c main_v3 (by decide)
      _ = W2 m ρ c (Proc.devRef .tc main_v3) := by untouched
      _ = _ := W2_v3 m ρ c
theorem W4_arg10 : W4 m ρ c (Proc.devRef .tc main_arg10) = m ((c : Thread nD τ).loc main_arg10) :=
    calc W4 m ρ c (Proc.devRef .tc main_arg10)
      _ = W3 m ρ c (Proc.devRef .tc main_arg10) := W4_of_ne m ρ c main_arg10 (by decide)
      _ = W2 m ρ c (Proc.devRef .tc main_arg10) := by untouched
      _ = W1 m ρ c (Proc.devRef .tc main_arg10) := W2_of_ne m ρ c main_arg10 (by decide)
      _ = W0 m ρ c (Proc.devRef .tc main_arg10) := by untouched
      _ = m ((c : Thread nD τ).loc main_arg10) := rfl

/-! ## After the third stretch -/

section
variable (r0 : ∀ (V : (c : Dev nD) → (b : Ref sig .tc) → Buf (Elt Ideal) ((c : Thread nD τ).loc b)) (c : Dev nD),
      (dat0 (F := Ideal) V c).arrAt 5 cfg0.N
        = Cert.Net.conv128 (F := Ideal) (V c main_v13) (V c main_arg0) (V c main_arg3) (V c main_v14) (V c main_arg5))
  (r1 : ∀ (V : (c : Dev nD) → (b : Ref sig .tc) → Buf (Elt Ideal) ((c : Thread nD τ).loc b)) (c : Dev nD),
      (dat1 (F := Ideal) V c).arrAt 5 cfg1.N
        = Cert.Net.conv64 (F := Ideal) (V c main_v25) (V c main_v15) (V c main_arg6) (V c main_v26) (V c main_arg8))
include r0 r1

set_option maxHeartbeats 4000000 in
theorem W5_v37 : W5 m ρ c (Proc.devRef .tc main_v37) = Cert.Net.agg64 (F := Ideal) (h2 m c) (m ((c : Thread nD τ).loc main_arg1)) := by
  show StableHlo.after hostOps2 (W4 m ρ c) (Proc.devRef .tc main_v37) = _
  after_results_simp
  rw [W4_v1, W4_v3, W4_v27 m ρ c r0 r1]
  rfl

theorem W5_v27 : W5 m ρ c (Proc.devRef .tc main_v27) = h2 m c :=
  (show W5 m ρ c (Proc.devRef .tc main_v27) = W4 m ρ c (Proc.devRef .tc main_v27) by untouched).trans (W4_v27 m ρ c r0 r1)

end

set_option maxHeartbeats 4000000 in
theorem W5_v38 : W5 m ρ c (Proc.devRef .tc main_v38) = Cert.Net.row64 (F := Ideal) (m ((c : Thread nD τ).loc main_arg10)) := by
  show StableHlo.after hostOps2 (W4 m ρ c) (Proc.devRef .tc main_v38) = _
  after_results_simp
  rw [W4_arg10]
  exact reshape_row64 _ _ _

theorem W5_arg9 : W5 m ρ c (Proc.devRef .tc main_arg9) = m ((c : Thread nD τ).loc main_arg9) :=
    calc W5 m ρ c (Proc.devRef .tc main_arg9)
      _ = W4 m ρ c (Proc.devRef .tc main_arg9) := by untouched
      _ = W3 m ρ c (Proc.devRef .tc main_arg9) := W4_of_ne m ρ c main_arg9 (by decide)
      _ = W2 m ρ c (Proc.devRef .tc main_arg9) := by untouched
      _ = W1 m ρ c (Proc.devRef .tc main_arg9) := W2_of_ne m ρ c main_arg9 (by decide)
      _ = W0 m ρ c (Proc.devRef .tc main_arg9) := by untouched
      _ = m ((c : Thread nD τ).loc main_arg9) := rfl
theorem W5_arg11 : W5 m ρ c (Proc.devRef .tc main_arg11) = m ((c : Thread nD τ).loc main_arg11) :=
    calc W5 m ρ c (Proc.devRef .tc main_arg11)
      _ = W4 m ρ c (Proc.devRef .tc main_arg11) := by untouched
      _ = W3 m ρ c (Proc.devRef .tc main_arg11) := W4_of_ne m ρ c main_arg11 (by decide)
      _ = W2 m ρ c (Proc.devRef .tc main_arg11) := by untouched
      _ = W1 m ρ c (Proc.devRef .tc main_arg11) := W2_of_ne m ρ c main_arg11 (by decide)
      _ = W0 m ρ c (Proc.devRef .tc main_arg11) := by untouched
      _ = m ((c : Thread nD τ).loc main_arg11) := rfl

/-! ## After the third call -/

section
variable (r0 : ∀ (V : (c : Dev nD) → (b : Ref sig .tc) → Buf (Elt Ideal) ((c : Thread nD τ).loc b)) (c : Dev nD),
      (dat0 (F := Ideal) V c).arrAt 5 cfg0.N
        = Cert.Net.conv128 (F := Ideal) (V c main_v13) (V c main_arg0) (V c main_arg3) (V c main_v14) (V c main_arg5))
  (r1 : ∀ (V : (c : Dev nD) → (b : Ref sig .tc) → Buf (Elt Ideal) ((c : Thread nD τ).loc b)) (c : Dev nD),
      (dat1 (F := Ideal) V c).arrAt 5 cfg1.N
        = Cert.Net.conv64 (F := Ideal) (V c main_v25) (V c main_v15) (V c main_arg6) (V c main_v26) (V c main_arg8))
  (r2 : ∀ (V : (c : Dev nD) → (b : Ref sig .tc) → Buf (Elt Ideal) ((c : Thread nD τ).loc b)) (c : Dev nD),
      (dat2 (F := Ideal) V c).arrAt 5 cfg2.N
        = Cert.Net.conv64 (F := Ideal) (V c main_v37) (V c main_v27) (V c main_arg9) (V c main_v38) (V c main_arg11))
include r0 r1 r2

theorem W6_v39 : W6 m ρ c (Proc.devRef .tc main_v39) = h3 m c := by
  refine (W6_arr m ρ c 5).trans ((r2 (V5 m ρ) c).trans ?_)
  show Cert.Net.conv64 (F := Ideal) (W5 m ρ c (Proc.devRef .tc main_v37)) (W5 m ρ c (Proc.devRef .tc main_v27)) (W5 m ρ c (Proc.devRef .tc main_arg9)) (W5 m ρ c (Proc.devRef .tc main_v38)) (W5 m ρ c (Proc.devRef .tc main_arg11)) = _
  rw [W5_v37 m ρ c r0 r1, W5_v27 m ρ c r0 r1, W5_arg9, W5_v38, W5_arg11]

end

theorem W6_arg2 : W6 m ρ c (Proc.devRef .tc main_arg2) = m ((c : Thread nD τ).loc main_arg2) :=
    calc W6 m ρ c (Proc.devRef .tc main_arg2)
      _ = W5 m ρ c (Proc.devRef .tc main_arg2) := W6_of_ne m ρ c main_arg2 (by decide)
      _ = W4 m ρ c (Proc.devRef .tc main_arg2) := by untouched
      _ = W3 m ρ c (Proc.devRef .tc main_arg2) := W4_of_ne m ρ c main_arg2 (by decide)
      _ = W2 m ρ c (Proc.devRef .tc main_arg2) := by untouched
      _ = W1 m ρ c (Proc.devRef .tc main_arg2) := W2_of_ne m ρ c main_arg2 (by decide)
      _ = W0 m ρ c (Proc.devRef .tc main_arg2) := by untouched
      _ = m ((c : Thread nD τ).loc main_arg2) := rfl
theorem W6_arg13 : W6 m ρ c (Proc.devRef .tc main_arg13) = m ((c : Thread nD τ).loc main_arg13) :=
    calc W6 m ρ c (Proc.devRef .tc main_arg13)
      _ = W5 m ρ c (Proc.devRef .tc main_arg13) := W6_of_ne m ρ c main_arg13 (by decide)
      _ = W4 m ρ c (Proc.devRef .tc main_arg13) := by untouched
      _ = W3 m ρ c (Proc.devRef .tc main_arg13) := W4_of_ne m ρ c main_arg13 (by decide)
      _ = W2 m ρ c (Proc.devRef .tc main_arg13) := by untouched
      _ = W1 m ρ c (Proc.devRef .tc main_arg13) := W2_of_ne m ρ c main_arg13 (by decide)
      _ = W0 m ρ c (Proc.devRef .tc main_arg13) := by untouched
      _ = m ((c : Thread nD τ).loc main_arg13) := rfl
theorem W6_arg15 : W6 m ρ c (Proc.devRef .tc main_arg15) = m ((c : Thread nD τ).loc main_arg15) :=
    calc W6 m ρ c (Proc.devRef .tc main_arg15)
      _ = W5 m ρ c (Proc.devRef .tc main_arg15) := W6_of_ne m ρ c main_arg15 (by decide)
      _ = W4 m ρ c (Proc.devRef .tc main_arg15) := by untouched
      _ = W3 m ρ c (Proc.devRef .tc main_arg15) := W4_of_ne m ρ c main_arg15 (by decide)
      _ = W2 m ρ c (Proc.devRef .tc main_arg15) := by untouched
      _ = W1 m ρ c (Proc.devRef .tc main_arg15) := W2_of_ne m ρ c main_arg15 (by decide)
      _ = W0 m ρ c (Proc.devRef .tc main_arg15) := by untouched
      _ = m ((c : Thread nD τ).loc main_arg15) := rfl

/-! ## After the fourth stretch: the per-graph sums and counts, the perceptron's bias rows -/

section
variable (r0 : ∀ (V : (c : Dev nD) → (b : Ref sig .tc) → Buf (Elt Ideal) ((c : Thread nD τ).loc b)) (c : Dev nD),
      (dat0 (F := Ideal) V c).arrAt 5 cfg0.N
        = Cert.Net.conv128 (F := Ideal) (V c main_v13) (V c main_arg0) (V c main_arg3) (V c main_v14) (V c main_arg5))
  (r1 : ∀ (V : (c : Dev nD) → (b : Ref sig .tc) → Buf (Elt Ideal) ((c : Thread nD τ).loc b)) (c : Dev nD),
      (dat1 (F := Ideal) V c).arrAt 5 cfg1.N
        = Cert.Net.conv64 (F := Ideal) (V c main_v25) (V c main_v15) (V c main_arg6) (V c main_v26) (V c main_arg8))
  (r2 : ∀ (V : (c : Dev nD) → (b : Ref sig .tc) → Buf (Elt Ideal) ((c : Thread nD τ).loc b)) (c : Dev nD),
      (dat2 (F := Ideal) V c).arrAt 5 cfg2.N
        = Cert.Net.conv64 (F := Ideal) (V c main_v37) (V c main_v27) (V c main_arg9) (V c main_v38) (V c main_arg11))
include r0 r1 r2

set_option maxHeartbeats 4000000 in
theorem W7_v42 : W7 m ρ c (Proc.devRef .tc main_v42) = Cert.Net.graphSums (F := Ideal) (h3 m c) (m ((c : Thread nD τ).loc main_arg2)) := by
  show StableHlo.after hostOps3 (W6 m ρ c) (Proc.devRef .tc main_v42) = _
  after_results_simp
  rw [W6_arg2, W6_v39 m ρ c r0 r1 r2]
  rfl

end

set_option maxHeartbeats 4000000 in
theorem W7_v46 : W7 m ρ c (Proc.devRef .tc main_v46) = Cert.Net.graphCounts (F := Ideal) (m ((c : Thread nD τ).loc main_arg2)) := by
  show StableHlo.after hostOps3 (W6 m ρ c) (Proc.devRef .tc main_v46) = _
  after_results_simp
  rw [W6_arg2]
  rfl

set_option maxHeartbeats 4000000 in
theorem W7_v47 : W7 m ρ c (Proc.devRef .tc main_v47) = Cert.Net.row32 (F := Ideal) (m ((c : Thread nD τ).loc main_arg13)) := by
  show StableHlo.after hostOps3 (W6 m ρ c) (Proc.devRef .tc main_v47) = _
  after_results_simp
  rw [W6_arg13]
  exact reshape_row32 _ _ _

set_option maxHeartbeats 4000000 in
theorem W7_v48 : W7 m ρ c (Proc.devRef .tc main_v48) = Cert.Net.row1 (F := Ideal) (m ((c : Thread nD τ).loc main_arg15)) := by
  show StableHlo.after hostOps3 (W6 m ρ c) (Proc.devRef .tc main_v48) = _
  after_results_simp
  rw [W6_arg15]
  exact reshape_row1 _ _ _

theorem W7_arg12 : W7 m ρ c (Proc.devRef .tc main_arg12) = m ((c : Thread nD τ).loc main_arg12) :=
    calc W7 m ρ c (Proc.devRef .tc main_arg12)
      _ = W6 m ρ c (Proc.devRef .tc main_arg12) := by untouched
      _ = W5 m ρ c (Proc.devRef .tc main_arg12) := W6_of_ne m ρ c main_arg12 (by decide)
      _ = W4 m ρ c (Proc.devRef .tc main_arg12) := by untouched
      _ = W3 m ρ c (Proc.devRef .tc main_arg12) := W4_of_ne m ρ c main_arg12 (by decide)
      _ = W2 m ρ c (Proc.devRef .tc main_arg12) := by untouched
      _ = W1 m ρ c (Proc.devRef .tc main_arg12) := W2_of_ne m ρ c main_arg12 (by decide)
      _ = W0 m ρ c (Proc.devRef .tc main_arg12) := by untouched
      _ = m ((c : Thread nD τ).loc main_arg12) := rfl
theorem W7_arg14 : W7 m ρ c (Proc.devRef .tc main_arg14) = m ((c : Thread nD τ).loc main_arg14) :=
    calc W7 m ρ c (Proc.devRef .tc main_arg14)
      _ = W6 m ρ c (Proc.devRef .tc main_arg14) := by untouched
      _ = W5 m ρ c (Proc.devRef .tc main_arg14) := W6_of_ne m ρ c main_arg14 (by decide)
      _ = W4 m ρ c (Proc.devRef .tc main_arg14) := by untouched
      _ = W3 m ρ c (Proc.devRef .tc main_arg14) := W4_of_ne m ρ c main_arg14 (by decide)
      _ = W2 m ρ c (Proc.devRef .tc main_arg14) := by untouched
      _ = W1 m ρ c (Proc.devRef .tc main_arg14) := W2_of_ne m ρ c main_arg14 (by decide)
      _ = W0 m ρ c (Proc.devRef .tc main_arg14) := by untouched
      _ = m ((c : Thread nD τ).loc main_arg14) := rfl

/-! ## After the fourth call, and the result -/

section
variable (r0 : ∀ (V : (c : Dev nD) → (b : Ref sig .tc) → Buf (Elt Ideal) ((c : Thread nD τ).loc b)) (c : Dev nD),
      (dat0 (F := Ideal) V c).arrAt 5 cfg0.N
        = Cert.Net.conv128 (F := Ideal) (V c main_v13) (V c main_arg0) (V c main_arg3) (V c main_v14) (V c main_arg5))
  (r1 : ∀ (V : (c : Dev nD) → (b : Ref sig .tc) → Buf (Elt Ideal) ((c : Thread nD τ).loc b)) (c : Dev nD),
      (dat1 (F := Ideal) V c).arrAt 5 cfg1.N
        = Cert.Net.conv64 (F := Ideal) (V c main_v25) (V c main_v15) (V c main_arg6) (V c main_v26) (V c main_arg8))
  (r2 : ∀ (V : (c : Dev nD) → (b : Ref sig .tc) → Buf (Elt Ideal) ((c : Thread nD τ).loc b)) (c : Dev nD),
      (dat2 (F := Ideal) V c).arrAt 5 cfg2.N
        = Cert.Net.conv64 (F := Ideal) (V c main_v37) (V c main_v27) (V c main_arg9) (V c main_v38) (V c main_arg11))
  (r3 : ∀ (V : (c : Dev nD) → (b : Ref sig .tc) → Buf (Elt Ideal) ((c : Thread nD τ).loc b)) (c : Dev nD),
      (dat3 (F := Ideal) V c).arrAt 6 cfg3.N
        = Cert.Net.head (F := Ideal) (V c main_v42) (V c main_v46) (V c main_arg12) (V c main_v47) (V c main_arg14) (V c main_v48))
include r0 r1 r2 r3

theorem W8_v49 : W8 m ρ c (Proc.devRef .tc main_v49)
    = Cert.Net.head (F := Ideal) (Cert.Net.graphSums (F := Ideal) (h3 m c) (m ((c : Thread nD τ).loc main_arg2))) (Cert.Net.graphCounts (F := Ideal) (m ((c : Thread nD τ).loc main_arg2)))
        (m ((c : Thread nD τ).loc main_arg12)) (Cert.Net.row32 (F := Ideal) (m ((c : Thread nD τ).loc main_arg13))) (m ((c : Thread nD τ).loc main_arg14)) (Cert.Net.row1 (F := Ideal) (m ((c : Thread nD τ).loc main_arg15))) := by
  refine (W8_arr m ρ c 6).trans ((r3 (V7 m ρ) c).trans ?_)
  show Cert.Net.head (F := Ideal) (W7 m ρ c (Proc.devRef .tc main_v42)) (W7 m ρ c (Proc.devRef .tc main_v46)) (W7 m ρ c (Proc.devRef .tc main_arg12)) (W7 m ρ c (Proc.devRef .tc main_v47)) (W7 m ρ c (Proc.devRef .tc main_arg14)) (W7 m ρ c (Proc.devRef .tc main_v48)) = _
  rw [W7_v42 m ρ c r0 r1 r2, W7_v46, W7_arg12, W7_v47, W7_arg14, W7_v48]

/-- THE RESULT BUFFER after the run is the network of the sixteen arguments' launch contents. -/
theorem result_eq_net : W9 m ρ c (Proc.devRef .tc main_v50)
    = Cert.Net.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps4 (W8 m ρ c) (Proc.devRef .tc main_v50) = _
  after_results
  rw [W8_v49 m ρ c r0 r1 r2 r3]
  rfl

end

end Cert.KernelIdeal.HostFold

end
-- ==== Proof.Region0.lean ====
/-
  Region 0 of the program, on exact extended reals: the output array after the pipelined call is one whole-array
  function of the arrays the region is entered with.

  The call runs 25 grid points; point t stages rows 2000·t … 2000·t + 1999 of the neighbour sums A and of the node
  features h (blocks of 2000 × 128), the two weight matrices and the bias row whole, and writes back rows
  2000·t … 2000·t + 1999 of the output: entry (p, q) of the block is
      max((Σ_k A[2000·t + p, k] · W[k, q] + b[0, q]) + Σ_k h[2000·t + p, k] · W'[k, q], 0),
  the narrowing of the operands to bf16 being the identity on exact values and the product into a zero accumulator the
  plain sum. A row of a product of a block of rows is the row of the product of the whole matrix, so every block is the
  restriction of  max((A · W + b) + h · W', 0)  computed on whole arrays, and the 25 blocks tile the 50000 rows.
-/
import proofs.«123539_j15650860827313_1_alg».proof.Proof.KernelIdealFrameP
import proofs.«123539_j15650860827313_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue0

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-! ## The two products and the whole-array function, at an index -/

/-- The offsets of a whole-buffer rectangle are zero on both axes. -/
theorem offsets_zero : (![0, 0] : Fin 2 → Nat) = fun _ => 0 := funext fun a => by fin_cases a <;> rfl

/-! The operand indices of a block's product at an output index `j` and a contraction index `q`, axis by axis: the left
    operand is read at (row of `j`, `q`), the right at (`q`, column of `j`). -/
theorem lhs_block_0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_block_1 (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_block_0 (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_block_1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Row `j 0` of a block of 2000 rows, at column `k`. -/
abbrev blockRowAt (j : S2000x64.Idx) (k : Fin 128) : S2000x128.Idx := fun a => match a with
  | ⟨0, _⟩ => ⟨(j 0).val, (j 0).isLt⟩
  | ⟨1, _⟩ => ⟨k.val, k.isLt⟩
/-- Column `j 1` of a weight matrix, at row `k`. -/
abbrev weightColAt (j : S2000x64.Idx) (k : Fin 128) : S128x64.Idx := fun a => match a with
  | ⟨0, _⟩ => ⟨k.val, k.isLt⟩
  | ⟨1, _⟩ => ⟨(j 1).val, (j 1).isLt⟩

/-- A product of a block of 2000 rows with a weight matrix into a zero accumulator, at an index: the plain sum over the 128 columns. -/
theorem matmul_block_apply (l : FVec Ideal S2000x128 .bf16) (r : FVec Ideal S128x64 .bf16) (j : S2000x64.Idx) :
    matmul (F := Ideal) dot_S2000x128_S128x64_S2000x64_1_0_0_1_n_n none l r (constant (F := Ideal) S2000x64 .f32 0x00000000#32) j
      = ∑ k : Fin 128, l (blockRowAt j k) * r (weightColAt j k) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = blockRowAt j k := funext fun a => Fin.ext (by
    match a with
    | ⟨0, _⟩ => exact lhs_block_0 _ _
    | ⟨1, _⟩ => exact (lhs_block_1 _ _).trans hk)
  have er : dot_S2000x128_S128x64_S2000x64_1_0_0_1_n_n.rhsIdx j ((ValueIdx.contrEquiv1 dot_S2000x128_S128x64_S2000x64_1_0_0_1_n_n 128 rfl rfl).symm k) = weightColAt j k := funext fun a => Fin.ext (by
    match a with
    | ⟨0, _⟩ => exact (rhs_block_0 _ _).trans hk
    | ⟨1, _⟩ => exact rhs_block_1 _ _)
  rw [el, er]

/-! The same for the product of the whole arrays, at an output index `i`. -/
theorem lhs_whole_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem lhs_whole_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem rhs_whole_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem rhs_whole_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- Row `i 0` of a whole array of 50000 rows, at column `k`. -/
abbrev wholeRowAt (i : S50000x64.Idx) (k : Fin 128) : S50000x128.Idx := fun a => match a with
  | ⟨0, _⟩ => ⟨(i 0).val, (i 0).isLt⟩
  | ⟨1, _⟩ => ⟨k.val, k.isLt⟩
/-- Column `i 1` of a weight matrix, at row `k`, for an index of the whole output array. -/
abbrev wholeColAt (i : S50000x64.Idx) (k : Fin 128) : S128x64.Idx := fun a => match a with
  | ⟨0, _⟩ => ⟨k.val, k.isLt⟩
  | ⟨1, _⟩ => ⟨(i 1).val, (i 1).isLt⟩
/-- The bias row's entry above column `i 1`. -/
abbrev biasAt (i : S50000x64.Idx) : S1x64.Idx := fun a => match a with
  | ⟨0, _⟩ => ⟨0, Nat.one_pos⟩
  | ⟨1, _⟩ => ⟨(i 1).val, (i 1).isLt⟩

/-- The product of a whole array of 50000 rows with a weight matrix, at an index: the plain sum over the 128 columns. -/
theorem dot_whole_apply (A : FVec Ideal S50000x128 .f32) (W : FVec Ideal S128x64 .f32) (i : S50000x64.Idx) :
    Host.dotGeneral (F := Ideal) Cert.ReferenceIdeal.dot_S50000x128_S128x64_S50000x64_1_0_0_1_n_n none A W i
      = ∑ k : Fin 128, A (wholeRowAt i k) * W (wholeColAt i k) := by
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = wholeRowAt i k := funext fun a => Fin.ext (by
    match a with
    | ⟨0, _⟩ => exact lhs_whole_0 _ _
    | ⟨1, _⟩ => exact (lhs_whole_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = wholeColAt i k := funext fun a => Fin.ext (by
    match a with
    | ⟨0, _⟩ => exact (rhs_whole_0 _ _).trans hk
    | ⟨1, _⟩ => exact rhs_whole_1 _ _)
  rw [el, er]

/-- The dense part of the layer on whole arrays, at an index. -/
theorem conv128_apply (A h : (⟨S50000x128, .f32⟩ : BufTy).Contents (Elt Ideal)) (W : (⟨S128x64, .f32⟩ : BufTy).Contents (Elt Ideal))
    (b : (⟨S1x64, .f32⟩ : BufTy).Contents (Elt Ideal)) (W' : (⟨S128x64, .f32⟩ : BufTy).Contents (Elt Ideal)) (i : S50000x64.Idx) :
    Cert.Net.conv128 (F := Ideal) A h W b W' i
      = max (((∑ k : Fin 128, A (wholeRowAt i k) * W (wholeColAt i k)) + b (biasAt i))
          + ∑ k : Fin 128, h (wholeRowAt i k) * W' (wholeColAt i k)) (Ideal.ofBits .f32 0x00000000#32) := by
  unfold Cert.Net.conv128
  rw [ValueIdx.maximumf_apply, ValueIdx.addf_apply, ValueIdx.addf_apply, dot_whole_apply, dot_whole_apply]
  rw [broadcastInDim_apply _ Cert.ReferenceIdeal.Gen.bcast_S1x64_S50000x64_0_1 b i (biasAt i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ Cert.ReferenceIdeal.Gen.bcast_S_S50000x64 (constant (F := Ideal) Cert.ReferenceIdeal.S_ .f32 0x00000000#32) i (fun a => a.elim0) (fun a => a.elim0)]
  rfl

/-- The bias row's entry above column `j 1`, for an index of a block. -/
abbrev biasBlockAt (j : S2000x64.Idx) : S1x64.Idx := fun a => match a with
  | ⟨0, _⟩ => ⟨0, Nat.one_pos⟩
  | ⟨1, _⟩ => ⟨(j 1).val, (j 1).isLt⟩

/-- The body's arithmetic on its loaded blocks, at an index of the output block. -/
theorem payload_apply (x0 x1 : Vec Ideal S2000x128 .f32) (x2 x4 : Vec Ideal S128x64 .f32) (x3 : Vec Ideal S1x64 .f32) (j : S2000x64.Idx) :
    k0_pay1 (F := Ideal) x0 x1 x2 x4 x3 j
      = max (((∑ k : Fin 128, x0 (blockRowAt j k) * x2 (weightColAt j k)) + x3 (biasBlockAt j))
          + ∑ k : Fin 128, x1 (blockRowAt j k) * x4 (weightColAt j k)) (Ideal.ofBits .f32 0x00000000#32) := by
  unfold k0_pay1
  rw [ValueIdx.maximumf_apply, ValueIdx.addf_apply, ValueIdx.addf_apply, matmul_block_apply, matmul_block_apply]
  rw [shapeCast_self, shapeCast_self,
    broadcastTo_apply x3 broadcasts_S1x64_S2000x64 j (biasBlockAt j) (fun a => match a with
      | ⟨0, _⟩ => by show 0 = if (1 : Nat) = 1 then 0 else _; rw [if_pos rfl]
      | ⟨1, _⟩ => by show (j 1).val = if (64 : Nat) = 1 then 0 else (j 1).val; rw [if_neg (by decide)])]
  rfl

/-! ## From the 25 blocks to the whole array -/

/-- The printed index maps, decided over the 25 points: the two row-blocked inputs move with the output's row block and
    stay at column block 0; the weights and the bias row stay at block (0, 0); the output's row block at point `t` is `t`. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the dense part of the layer computed on the whole entry arrays. -/
theorem flushed_eq (c : Dev nD) (t : Fin cfg0.N) :
    (dat0 (F := Ideal) V c).flushed 5 t = ((cfg0.win 5).blk t).view.read (Elt Ideal)
      (Cert.Net.conv128 (F := Ideal) (V c main_v13) (V c main_arg0) (V c main_arg3) (V c main_v14) (V c main_arg5)) := by
  show (cfg0.win 5).cut (grid0.coords t) ((dat0 (F := Ideal) V c).after 5 t) = _
  rw [after0_5]
  unfold out0_5
  rw [View.canon_unit_zero offsets_zero]
  simp only [View.ld_unit_zero (S := S2000x128) offsets_zero, View.ld_unit_zero (S := S128x64) offsets_zero, View.ld_unit_zero (S := S1x64) offsets_zero]
  obtain ⟨e00, e01, e10, e11, e20, e21, e30, e31, e40, e41, e50, e51⟩ := index_facts t
  refine funext fun (y : S2000x64.Idx) => ?_
  show k0_pay1 (F := Ideal) (iblk0 V c 0 t) (iblk0 V c 1 t) (iblk0 V c 2 t) (iblk0 V c 4 t) (iblk0 V c 3 t) y
      = Cert.Net.conv128 (F := Ideal) (V c main_v13) (V c main_arg0) (V c main_arg3) (V c main_v14) (V c main_arg5) (((cfg0.win 5).blk t).view.emb y)
  rw [payload_apply, conv128_apply]
  have hA : ∀ k : Fin 128, iblk0 V c 0 t (blockRowAt y k) = V c main_v13 (wholeRowAt (((cfg0.win 5).blk t).view.emb y) k) := fun k => by
    show V c main_v13 (((cfg0.win 0).blk t).view.emb (blockRowAt y k)) = V c main_v13 (wholeRowAt (((cfg0.win 5).blk t).view.emb y) k)
    refine congrArg _ (funext fun a => Fin.ext ?_)
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 128 + 1 * k.val = k.val; omega
  have hh : ∀ k : Fin 128, iblk0 V c 1 t (blockRowAt y k) = V c main_arg0 (wholeRowAt (((cfg0.win 5).blk t).view.emb y) k) := fun k => by
    show V c main_arg0 (((cfg0.win 1).blk t).view.emb (blockRowAt y k)) = V c main_arg0 (wholeRowAt (((cfg0.win 5).blk t).view.emb y) k)
    refine congrArg _ (funext fun a => Fin.ext ?_)
    match a with
    | ⟨0, _⟩ => show win0_1.index t (0 : Fin 2) * 2000 + 1 * (y 0).val = win0_5.index t (0 : Fin 2) * 2000 + 1 * (y 0).val; omega
    | ⟨1, _⟩ => show win0_1.index t (1 : Fin 2) * 128 + 1 * k.val = k.val; omega
  have hW : ∀ k : Fin 128, iblk0 V c 2 t (weightColAt y k) = V c main_arg3 (wholeColAt (((cfg0.win 5).blk t).view.emb y) k) := fun k => by
    show V c main_arg3 (((cfg0.win 2).blk t).view.emb (weightColAt y k)) = V c main_arg3 (wholeColAt (((cfg0.win 5).blk t).view.emb y) k)
    refine congrArg _ (funext fun a => Fin.ext ?_)
    match a with
    | ⟨0, _⟩ => show win0_2.index t (0 : Fin 2) * 128 + 1 * k.val = k.val; omega
    | ⟨1, _⟩ => show win0_2.index t (1 : Fin 2) * 64 + 1 * (y 1).val = win0_5.index t (1 : Fin 2) * 64 + 1 * (y 1).val; omega
  have hW' : ∀ k : Fin 128, iblk0 V c 4 t (weightColAt y k) = V c main_arg5 (wholeColAt (((cfg0.win 5).blk t).view.emb y) k) := fun k => by
    show V c main_arg5 (((cfg0.win 4).blk t).view.emb (weightColAt y k)) = V c main_arg5 (wholeColAt (((cfg0.win 5).blk t).view.emb y) k)
    refine congrArg _ (funext fun a => Fin.ext ?_)
    match a with
    | ⟨0, _⟩ => show win0_4.index t (0 : Fin 2) * 128 + 1 * k.val = k.val; omega
    | ⟨1, _⟩ => show win0_4.index t (1 : Fin 2) * 64 + 1 * (y 1).val = win0_5.index t (1 : Fin 2) * 64 + 1 * (y 1).val; omega
  have hb : iblk0 V c 3 t (biasBlockAt y) = V c main_v14 (biasAt (((cfg0.win 5).blk t).view.emb y)) := by
    show V c main_v14 (((cfg0.win 3).blk t).view.emb (biasBlockAt y)) = V c main_v14 (biasAt (((cfg0.win 5).blk t).view.emb y))
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * (y 1).val = win0_5.index t (1 : Fin 2) * 64 + 1 * (y 1).val; omega
  simp only [hA, hh, hW, hW', hb]

/-- An index of the output array is in point `t`'s block iff each coordinate is in the block's range on its axis. -/
theorem mem_block (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v15).slice (win0_5.rect t)).set ↔ _
  rw [View.set_slice_whole, Rect.mem_set_unit]
  exact Iff.rfl

/-- The 25 blocks of 2000 rows tile the 50000 rows: row `r` lies in the block of point `r / 2000`. -/
theorem covered (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 25 := N_0
  have hlt : (i 0).val / 2000 < cfg0.N := by rw [hN]; omega
  obtain ⟨-, -, -, -, -, -, -, -, -, -, e50, e51⟩ := index_facts ⟨(i 0).val / 2000, hlt⟩
  have e50' : win0_5.index ⟨(i 0).val / 2000, hlt⟩ (0 : Fin 2) = (i 0).val / 2000 := e50
  refine ⟨⟨(i 0).val / 2000, hlt⟩, flush0_5 _, ?_⟩
  rw [mem_block]
  intro a
  match a with
  | ⟨0, _⟩ => show win0_5.index ⟨(i 0).val / 2000, hlt⟩ (0 : Fin 2) * 2000 ≤ (i 0).val ∧ (i 0).val < win0_5.index ⟨(i 0).val / 2000, hlt⟩ (0 : Fin 2) * 2000 + 2000; omega
  | ⟨1, _⟩ => show win0_5.index ⟨(i 0).val / 2000, hlt⟩ (1 : Fin 2) * 64 ≤ (i 1).val ∧ (i 1).val < win0_5.index ⟨(i 0).val / 2000, hlt⟩ (1 : Fin 2) * 64 + 64; omega

/-- After region 0 its output array holds the dense part of the first layer of the arrays at entry. -/
theorem region0 (c : Dev nD) :
    (dat0 (F := Ideal) V c).arrAt 5 cfg0.N
      = Cert.Net.conv128 (F := Ideal) (V c main_v13) (V c main_arg0) (V c main_arg3) (V c main_v14) (V c main_arg5) := by
  exact (dat0 (F := Ideal) V c).arrAt_eq_of_cover 5 _ (fun t _ => flushed_eq V c t) covered

end Cert.KernelIdeal.RegionValue0

end
-- ==== Proof.Region1.lean ====
/-
  Region 1 of the program, on exact extended reals: the output array after the pipelined call is one whole-array
  function of the arrays the region is entered with.

  The call runs 25 grid points; point t stages rows 2000·t … 2000·t + 1999 of the neighbour sums A and of the node
  features h (blocks of 2000 × 64), the two weight matrices and the bias row whole, and writes back rows
  2000·t … 2000·t + 1999 of the output: entry (p, q) of the block is
      max((Σ_k A[2000·t + p, k] · W[k, q] + b[0, q]) + Σ_k h[2000·t + p, k] · W'[k, q], 0),
  the narrowing of the operands to bf16 being the identity on exact values and the product into a zero accumulator the
  plain sum. A row of a product of a block of rows is the row of the product of the whole matrix, so every block is the
  restriction of  max((A · W + b) + h · W', 0)  computed on whole arrays, and the 25 blocks tile the 50000 rows.
-/
import proofs.«123539_j15650860827313_1_alg».proof.Proof.KernelIdealFrameP
import proofs.«123539_j15650860827313_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue1

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-! ## The block product at an index

The kernel multiplies a block of 2000 rows by a 64 × 64 matrix into a zero accumulator: entry (p, q) is the plain sum
over the 64 columns k of row p's entry k times the matrix's entry (k, q). -/

theorem lhs_block_dot_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_block_dot_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_block_dot_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_block_dot_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Row `j 0` of a block, column `k`. -/
abbrev lidx_block (j : S2000x64.Idx) (k : Fin 64) : S2000x64.Idx := fun a => match a with
  | ⟨0, _⟩ => ⟨(j 0).val, (j 0).isLt⟩
  | ⟨1, _⟩ => ⟨k.val, k.isLt⟩
/-- Row `k` of a weight matrix, column `j 1`. -/
abbrev ridx_block (j : S2000x64.Idx) (k : Fin 64) : S64x64.Idx := fun a => match a with
  | ⟨0, _⟩ => ⟨k.val, k.isLt⟩
  | ⟨1, _⟩ => ⟨(j 1).val, (j 1).isLt⟩
/-- The bias row at column `j 1`. -/
abbrev bidx_block (j : S2000x64.Idx) : S1x64.Idx := fun a => match a with
  | ⟨0, _⟩ => ⟨0, Nat.one_pos⟩
  | ⟨1, _⟩ => ⟨(j 1).val, (j 1).isLt⟩

theorem block_matmul_apply (x : FVec Ideal S2000x64 .bf16) (w : FVec Ideal S64x64 .bf16) (j : S2000x64.Idx) :
    matmul dot_S2000x64_S64x64_S2000x64_1_0_0_1_n_n none x w (constant (F := Ideal) S2000x64 .f32 0x00000000#32) j
      = ∑ k : Fin 64, x (lidx_block j k) * w (ridx_block j k) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx j ((ValueIdx.contrEquiv1 dot_S2000x64_S64x64_S2000x64_1_0_0_1_n_n 64 rfl rfl).symm k) = lidx_block j k := funext fun a => Fin.ext (by
    match a with
    | ⟨0, _⟩ => exact lhs_block_dot_0 _ _
    | ⟨1, _⟩ => exact (lhs_block_dot_1 _ _).trans hk)
  have er : dot_S2000x64_S64x64_S2000x64_1_0_0_1_n_n.rhsIdx j ((ValueIdx.contrEquiv1 dot_S2000x64_S64x64_S2000x64_1_0_0_1_n_n 64 rfl rfl).symm k) = ridx_block j k := funext fun a => Fin.ext (by
    match a with
    | ⟨0, _⟩ => exact (rhs_block_dot_0 _ _).trans hk
    | ⟨1, _⟩ => exact rhs_block_dot_1 _ _)
  rw [el, er]

/-- The bias row repeated down the block's rows reads, at (p, q), the row's entry q. -/
theorem bias_block_apply (x3 : Vec Ideal S1x64 .f32) (j : S2000x64.Idx) :
    broadcastTo S2000x64 x3 broadcasts_S1x64_S2000x64 j = x3 (bidx_block j) :=
  broadcastTo_apply x3 broadcasts_S1x64_S2000x64 j (bidx_block j) (fun a => match a with
    | ⟨0, _⟩ => by show (0 : Nat) = if (1 : Nat) = 1 then 0 else _; rw [if_pos rfl]
    | ⟨1, _⟩ => by show (j 1).val = if (64 : Nat) = 1 then 0 else _; rw [if_neg (by decide)]; rfl)

/-- The body's result at entry (p, q) of the block: max((Σ_k A[p, k] · W[k, q] + b[0, q]) + Σ_k h[p, k] · W'[k, q], 0). -/
theorem pay_apply (x0 x1 : Vec Ideal S2000x64 .f32) (x2 x4 : Vec Ideal S64x64 .f32) (x3 : Vec Ideal S1x64 .f32) (j : S2000x64.Idx) :
    k1_pay1 (F := Ideal) x0 x1 x2 x4 x3 j
      = max ((∑ k : Fin 64, x0 (lidx_block j k) * x2 (ridx_block j k) + x3 (bidx_block j))
          + ∑ k : Fin 64, x1 (lidx_block j k) * x4 (ridx_block j k)) 0 := by
  unfold k1_pay1
  rw [ValueIdx.maximumf_apply, ValueIdx.addf_apply, ValueIdx.addf_apply, block_matmul_apply, block_matmul_apply]
  simp only [shapeCast_self, ValueIdx.truncf_apply]
  rw [ValueIdx.broadcast_apply, bias_block_apply]
  show max _ (Ideal.ofBits .f32 0x00000000#32) = _
  rw [Ideal.ofBits_zero_f32]

/-! ## The reference's layer at an index

On whole arrays of 50000 rows, entry (r, q) of max((A · W + b) + h · W', 0) is
max((Σ_k A[r, k] · W[k, q] + b[0, q]) + Σ_k h[r, k] · W'[k, q], 0). -/

theorem lhs_whole_dot_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
theorem lhs_whole_dot_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
theorem rhs_whole_dot_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
theorem rhs_whole_dot_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl

/-- Row `i 0` of a whole array, column `k`. -/
abbrev lidx_whole (i : S50000x64.Idx) (k : Fin 64) : S50000x64.Idx := fun a => match a with
  | ⟨0, _⟩ => ⟨(i 0).val, (i 0).isLt⟩
  | ⟨1, _⟩ => ⟨k.val, k.isLt⟩
/-- Row `k` of a weight matrix, column `i 1`. -/
abbrev ridx_whole (i : S50000x64.Idx) (k : Fin 64) : S64x64.Idx := fun a => match a with
  | ⟨0, _⟩ => ⟨k.val, k.isLt⟩
  | ⟨1, _⟩ => ⟨(i 1).val, (i 1).isLt⟩
/-- The bias row at column `i 1`. -/
abbrev bidx_whole (i : S50000x64.Idx) : S1x64.Idx := fun a => match a with
  | ⟨0, _⟩ => ⟨0, Nat.one_pos⟩
  | ⟨1, _⟩ => ⟨(i 1).val, (i 1).isLt⟩

theorem whole_dot_apply (x : FVec Ideal S50000x64 .f32) (w : FVec Ideal S64x64 .f32) (i : S50000x64.Idx) :
    Host.dotGeneral (F := Ideal) (φ₁ := .f32) (φ₂ := .f32) Cert.ReferenceIdeal.dot_S50000x64_S64x64_S50000x64_1_0_0_1_n_n none x w i
      = ∑ k : Fin 64, x (lidx_whole i k) * w (ridx_whole i k) := by
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx i ((ValueIdx.contrEquiv1 Cert.ReferenceIdeal.dot_S50000x64_S64x64_S50000x64_1_0_0_1_n_n 64 rfl rfl).symm k) = lidx_whole i k := funext fun a => Fin.ext (by
    match a with
    | ⟨0, _⟩ => exact lhs_whole_dot_0 _ _
    | ⟨1, _⟩ => exact (lhs_whole_dot_1 _ _).trans hk)
  have er : Cert.ReferenceIdeal.dot_S50000x64_S64x64_S50000x64_1_0_0_1_n_n.rhsIdx i ((ValueIdx.contrEquiv1 Cert.ReferenceIdeal.dot_S50000x64_S64x64_S50000x64_1_0_0_1_n_n 64 rfl rfl).symm k) = ridx_whole i k := funext fun a => Fin.ext (by
    match a with
    | ⟨0, _⟩ => exact (rhs_whole_dot_0 _ _).trans hk
    | ⟨1, _⟩ => exact rhs_whole_dot_1 _ _)
  rw [el, er]

/-- The bias row repeated down the 50000 rows reads, at (r, q), the row's entry q. -/
theorem bias_whole_apply (b : (⟨S1x64, .f32⟩ : BufTy).Contents (Elt Ideal)) (i : S50000x64.Idx) :
    broadcastInDim Cert.ReferenceIdeal.S50000x64 ![0, 1] Cert.ReferenceIdeal.Gen.bcast_S1x64_S50000x64_0_1 b i = b (bidx_whole i) :=
  broadcastInDim_apply _ Cert.ReferenceIdeal.Gen.bcast_S1x64_S50000x64_0_1 b i (bidx_whole i) (fun a => match a with
    | ⟨0, _⟩ => by show (0 : Nat) = if (1 : Nat) = 1 then 0 else _; rw [if_pos rfl]
    | ⟨1, _⟩ => by show (i 1).val = if (64 : Nat) = 1 then 0 else (i 1).val; rw [if_neg (by decide)])

/-- The zero constant repeated over the whole array is zero at every index. -/
theorem zero_whole_apply (i : S50000x64.Idx) :
    broadcastInDim Cert.ReferenceIdeal.S50000x64 ![] Cert.ReferenceIdeal.Gen.bcast_S_S50000x64 (constant (F := Ideal) Cert.ReferenceIdeal.S_ .f32 0x00000000#32) i = 0 := by
  rw [broadcastInDim_apply _ Cert.ReferenceIdeal.Gen.bcast_S_S50000x64 _ i (fun a => a.elim0) (fun a => a.elim0), ValueIdx.constant_apply, Ideal.ofBits_zero_f32]

/-- The reference's layer at entry (r, q). -/
theorem conv64_apply (A h : (⟨S50000x64, .f32⟩ : BufTy).Contents (Elt Ideal)) (W : (⟨S64x64, .f32⟩ : BufTy).Contents (Elt Ideal))
    (b : (⟨S1x64, .f32⟩ : BufTy).Contents (Elt Ideal)) (W' : (⟨S64x64, .f32⟩ : BufTy).Contents (Elt Ideal)) (i : S50000x64.Idx) :
    Cert.Net.conv64 (F := Ideal) A h W b W' i
      = max ((∑ k : Fin 64, A (lidx_whole i k) * W (ridx_whole i k) + b (bidx_whole i))
          + ∑ k : Fin 64, h (lidx_whole i k) * W' (ridx_whole i k)) 0 := by
  unfold Cert.Net.conv64
  rw [ValueIdx.maximumf_apply, ValueIdx.addf_apply, ValueIdx.addf_apply, whole_dot_apply, whole_dot_apply, bias_whole_apply, zero_whole_apply]

/-! ## From the 25 blocks to the whole array -/

theorem zero_offsets : (![0, 0] : Fin 2 → Nat) = fun _ => 0 := funext fun a => by fin_cases a <;> rfl

/-- The printed index maps, decided over the 25 grid points: the two row-blocked inputs move with the output down the
    rows and stay at column block 0; the weights and the bias row stay at block (0, 0); the output's row block is at
    most 24 and its column block 0. -/
theorem index_facts : ∀ t : Fin cfg1.N, win1_0.index t (0 : Fin 2) = win1_5.index t (0 : Fin 2) + 0
    ∧ win1_0.index t (1 : Fin 2) = win1_5.index t (1 : Fin 2) + 0
    ∧ win1_1.index t (0 : Fin 2) = win1_5.index t (0 : Fin 2) + 0
    ∧ win1_1.index t (1 : Fin 2) = win1_5.index t (1 : Fin 2) + 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ 0 ≤ win1_5.index t (0 : Fin 2) ∧ win1_5.index t (0 : Fin 2) ≤ 24
    ∧ 0 ≤ win1_5.index t (1 : Fin 2) ∧ win1_5.index t (1 : Fin 2) ≤ 0 :=
  (by decide +kernel : ∀ t : Fin grid1.N, _)

/-- Every row block is SOME point's. -/
theorem index_onto : ∀ (q0 : Fin 25) (q1 : Fin 1), ∃ t : Fin cfg1.N, win1_5.index t = ![q0.val + 0, q1.val + 0] :=
  (by decide +kernel : ∀ (q0 : Fin 25) (q1 : Fin 1), ∃ t : Fin grid1.N, win1_5.index t = ![q0.val + 0, q1.val + 0])

/-- WHAT POINT `t` WRITES BACK is block `t` of the layer computed on the whole arrays the region is entered with. -/
theorem flushed_eq (c : Dev nD) (t : Fin cfg1.N) :
    (dat1 (F := Ideal) V c).flushed 5 t = ((cfg1.win 5).blk t).view.read (Elt Ideal)
      (Cert.Net.conv64 (F := Ideal) (V c main_v25) (V c main_v15) (V c main_arg6) (V c main_v26) (V c main_arg8)) := by
  show (cfg1.win 5).cut (grid1.coords t) ((dat1 V c).after 5 t) = _
  rw [after1_5]
  unfold out1_5
  rw [View.canon_unit_zero zero_offsets]
  simp only [View.ld_unit_zero (S := S2000x64) zero_offsets, View.ld_unit_zero (S := S64x64) zero_offsets, View.ld_unit_zero (S := S1x64) zero_offsets]
  obtain ⟨e00, e01, e10, e11, e20, e21, e30, e31, e40, e41, l0, u0, l1, u1⟩ := index_facts t
  funext y
  show k1_pay1 (F := Ideal) (iblk1 V c 0 t) (iblk1 V c 1 t) (iblk1 V c 2 t) (iblk1 V c 4 t) (iblk1 V c 3 t) y
    = Cert.Net.conv64 (F := Ideal) (V c main_v25) (V c main_v15) (V c main_arg6) (V c main_v26) (V c main_arg8) (((cfg1.win 5).blk t).view.emb y)
  rw [pay_apply, conv64_apply]
  -- each input block read where the output's rectangle says
  have hA : ∀ k : Fin 64, iblk1 V c 0 t (lidx_block y k) = V c main_v25 (lidx_whole (((cfg1.win 5).blk t).view.emb y) k) := fun k => by
    show V c main_v25 (((cfg1.win 0).blk t).view.emb (lidx_block y k)) = V c main_v25 (lidx_whole (((cfg1.win 5).blk t).view.emb y) k)
    refine congrArg _ (funext fun a => Fin.ext ?_)
    match a with
    | ⟨0, _⟩ => show win1_0.index t (0 : Fin 2) * 2000 + 1 * (y 0).val = win1_5.index t (0 : Fin 2) * 2000 + 1 * (y 0).val; omega
    | ⟨1, _⟩ => show win1_0.index t (1 : Fin 2) * 64 + 1 * k.val = k.val; omega
  have hh : ∀ k : Fin 64, iblk1 V c 1 t (lidx_block y k) = V c main_v15 (lidx_whole (((cfg1.win 5).blk t).view.emb y) k) := fun k => by
    show V c main_v15 (((cfg1.win 1).blk t).view.emb (lidx_block y k)) = V c main_v15 (lidx_whole (((cfg1.win 5).blk t).view.emb y) k)
    refine congrArg _ (funext fun a => Fin.ext ?_)
    match a with
    | ⟨0, _⟩ => show win1_1.index t (0 : Fin 2) * 2000 + 1 * (y 0).val = win1_5.index t (0 : Fin 2) * 2000 + 1 * (y 0).val; omega
    | ⟨1, _⟩ => show win1_1.index t (1 : Fin 2) * 64 + 1 * k.val = k.val; omega
  have hW : ∀ k : Fin 64, iblk1 V c 2 t (ridx_block y k) = V c main_arg6 (ridx_whole (((cfg1.win 5).blk t).view.emb y) k) := fun k => by
    show V c main_arg6 (((cfg1.win 2).blk t).view.emb (ridx_block y k)) = V c main_arg6 (ridx_whole (((cfg1.win 5).blk t).view.emb y) k)
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * (y 1).val = win1_5.index t (1 : Fin 2) * 64 + 1 * (y 1).val; omega
  have hW' : ∀ k : Fin 64, iblk1 V c 4 t (ridx_block y k) = V c main_arg8 (ridx_whole (((cfg1.win 5).blk t).view.emb y) k) := fun k => by
    show V c main_arg8 (((cfg1.win 4).blk t).view.emb (ridx_block y k)) = V c main_arg8 (ridx_whole (((cfg1.win 5).blk t).view.emb y) k)
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * (y 1).val = win1_5.index t (1 : Fin 2) * 64 + 1 * (y 1).val; omega
  have hb : iblk1 V c 3 t (bidx_block y) = V c main_v26 (bidx_whole (((cfg1.win 5).blk t).view.emb y)) := by
    show V c main_v26 (((cfg1.win 3).blk t).view.emb (bidx_block y)) = V c main_v26 (bidx_whole (((cfg1.win 5).blk t).view.emb y))
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * (y 1).val = win1_5.index t (1 : Fin 2) * 64 + 1 * (y 1).val; omega
  simp only [hA, hW, hh, hW', hb]

/-- An index of the array is in point `t`'s block iff each coordinate is in the block's range on its axis. -/
theorem mem_block (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v27).slice (win1_5.rect t)).set ↔ _
  rw [View.set_slice_whole, Rect.mem_set_unit]
  exact Iff.rfl

/-- The 25 blocks of 2000 rows tile the 50000 rows: row r is in the block of point r / 2000. -/
theorem covered (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := index_onto ⟨(i 0).val / 2000 - 0, by omega⟩ ⟨(i 1).val / 64 - 0, by omega⟩
  have q0 : win1_5.index t (0 : Fin 2) = (i 0).val / 2000 - 0 + 0 := congrFun ht 0
  have q1 : win1_5.index t (1 : Fin 2) = (i 1).val / 64 - 0 + 0 := congrFun ht 1
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- After region 1 its output array holds the dense part of the second layer of the arrays at entry. -/
theorem region1 (c : Dev nD) :
    (dat1 (F := Ideal) V c).arrAt 5 cfg1.N
      = Cert.Net.conv64 (F := Ideal) (V c main_v25) (V c main_v15) (V c main_arg6) (V c main_v26) (V c main_arg8) :=
  (dat1 (F := Ideal) V c).arrAt_eq_of_cover 5 _ (fun t _ => flushed_eq V c t) covered

end Cert.KernelIdeal.RegionValue1

end
-- ==== Proof.Region2.lean ====
/-
  Region 2 of the program, on exact extended reals: the output array after the pipelined call is one whole-array
  function of the arrays the region is entered with.

  The call runs 25 grid points; point t stages rows 2000·t … 2000·t + 1999 of the neighbour sums A and of the node
  features h (blocks of 2000 × 64), the two weight matrices and the bias row whole, and writes back rows
  2000·t … 2000·t + 1999 of the output: entry (p, q) of the block is
      max((Σ_k A[2000·t + p, k] · W[k, q] + b[0, q]) + Σ_k h[2000·t + p, k] · W'[k, q], 0),
  the narrowing of the operands to bf16 being the identity on exact values and the product into a zero accumulator the
  plain sum. A row of a product of a block of rows is the row of the product of the whole matrix, so every block is the
  restriction of  max((A · W + b) + h · W', 0)  computed on whole arrays, and the 25 blocks tile the 50000 rows.
-/
import proofs.«123539_j15650860827313_1_alg».proof.Proof.KernelIdealFrameP
import proofs.«123539_j15650860827313_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue2

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-! ## The block product at an index

The kernel multiplies a block of 2000 rows by a 64 × 64 matrix into a zero accumulator: entry (p, q) is the plain sum
over the 64 columns k of row p's entry k times the matrix's entry (k, q). -/

theorem lhs_block_dot_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_block_dot_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_block_dot_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_block_dot_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Row `j 0` of a block, column `k`. -/
abbrev lidx_block (j : S2000x64.Idx) (k : Fin 64) : S2000x64.Idx := fun a => match a with
  | ⟨0, _⟩ => ⟨(j 0).val, (j 0).isLt⟩
  | ⟨1, _⟩ => ⟨k.val, k.isLt⟩
/-- Row `k` of a weight matrix, column `j 1`. -/
abbrev ridx_block (j : S2000x64.Idx) (k : Fin 64) : S64x64.Idx := fun a => match a with
  | ⟨0, _⟩ => ⟨k.val, k.isLt⟩
  | ⟨1, _⟩ => ⟨(j 1).val, (j 1).isLt⟩
/-- The bias row at column `j 1`. -/
abbrev bidx_block (j : S2000x64.Idx) : S1x64.Idx := fun a => match a with
  | ⟨0, _⟩ => ⟨0, Nat.one_pos⟩
  | ⟨1, _⟩ => ⟨(j 1).val, (j 1).isLt⟩

theorem block_matmul_apply (x : FVec Ideal S2000x64 .bf16) (w : FVec Ideal S64x64 .bf16) (j : S2000x64.Idx) :
    matmul dot_S2000x64_S64x64_S2000x64_1_0_0_1_n_n none x w (constant (F := Ideal) S2000x64 .f32 0x00000000#32) j
      = ∑ k : Fin 64, x (lidx_block j k) * w (ridx_block j k) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx j ((ValueIdx.contrEquiv1 dot_S2000x64_S64x64_S2000x64_1_0_0_1_n_n 64 rfl rfl).symm k) = lidx_block j k := funext fun a => Fin.ext (by
    match a with
    | ⟨0, _⟩ => exact lhs_block_dot_0 _ _
    | ⟨1, _⟩ => exact (lhs_block_dot_1 _ _).trans hk)
  have er : dot_S2000x64_S64x64_S2000x64_1_0_0_1_n_n.rhsIdx j ((ValueIdx.contrEquiv1 dot_S2000x64_S64x64_S2000x64_1_0_0_1_n_n 64 rfl rfl).symm k) = ridx_block j k := funext fun a => Fin.ext (by
    match a with
    | ⟨0, _⟩ => exact (rhs_block_dot_0 _ _).trans hk
    | ⟨1, _⟩ => exact rhs_block_dot_1 _ _)
  rw [el, er]

/-- The bias row repeated down the block's rows reads, at (p, q), the row's entry q. -/
theorem bias_block_apply (x3 : Vec Ideal S1x64 .f32) (j : S2000x64.Idx) :
    broadcastTo S2000x64 x3 broadcasts_S1x64_S2000x64 j = x3 (bidx_block j) :=
  broadcastTo_apply x3 broadcasts_S1x64_S2000x64 j (bidx_block j) (fun a => match a with
    | ⟨0, _⟩ => by show (0 : Nat) = if (1 : Nat) = 1 then 0 else _; rw [if_pos rfl]
    | ⟨1, _⟩ => by show (j 1).val = if (64 : Nat) = 1 then 0 else _; rw [if_neg (by decide)]; rfl)

/-- The body's result at entry (p, q) of the block: max((Σ_k A[p, k] · W[k, q] + b[0, q]) + Σ_k h[p, k] · W'[k, q], 0). -/
theorem pay_apply (x0 x1 : Vec Ideal S2000x64 .f32) (x2 x4 : Vec Ideal S64x64 .f32) (x3 : Vec Ideal S1x64 .f32) (j : S2000x64.Idx) :
    k2_pay1 (F := Ideal) x0 x1 x2 x4 x3 j
      = max ((∑ k : Fin 64, x0 (lidx_block j k) * x2 (ridx_block j k) + x3 (bidx_block j))
          + ∑ k : Fin 64, x1 (lidx_block j k) * x4 (ridx_block j k)) 0 := by
  unfold k2_pay1
  rw [ValueIdx.maximumf_apply, ValueIdx.addf_apply, ValueIdx.addf_apply, block_matmul_apply, block_matmul_apply]
  simp only [shapeCast_self, ValueIdx.truncf_apply]
  rw [ValueIdx.broadcast_apply, bias_block_apply]
  show max _ (Ideal.ofBits .f32 0x00000000#32) = _
  rw [Ideal.ofBits_zero_f32]

/-! ## The reference's layer at an index

On whole arrays of 50000 rows, entry (r, q) of max((A · W + b) + h · W', 0) is
max((Σ_k A[r, k] · W[k, q] + b[0, q]) + Σ_k h[r, k] · W'[k, q], 0). -/

theorem lhs_whole_dot_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
theorem lhs_whole_dot_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
theorem rhs_whole_dot_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
theorem rhs_whole_dot_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl

/-- Row `i 0` of a whole array, column `k`. -/
abbrev lidx_whole (i : S50000x64.Idx) (k : Fin 64) : S50000x64.Idx := fun a => match a with
  | ⟨0, _⟩ => ⟨(i 0).val, (i 0).isLt⟩
  | ⟨1, _⟩ => ⟨k.val, k.isLt⟩
/-- Row `k` of a weight matrix, column `i 1`. -/
abbrev ridx_whole (i : S50000x64.Idx) (k : Fin 64) : S64x64.Idx := fun a => match a with
  | ⟨0, _⟩ => ⟨k.val, k.isLt⟩
  | ⟨1, _⟩ => ⟨(i 1).val, (i 1).isLt⟩
/-- The bias row at column `i 1`. -/
abbrev bidx_whole (i : S50000x64.Idx) : S1x64.Idx := fun a => match a with
  | ⟨0, _⟩ => ⟨0, Nat.one_pos⟩
  | ⟨1, _⟩ => ⟨(i 1).val, (i 1).isLt⟩

theorem whole_dot_apply (x : FVec Ideal S50000x64 .f32) (w : FVec Ideal S64x64 .f32) (i : S50000x64.Idx) :
    Host.dotGeneral (F := Ideal) (φ₁ := .f32) (φ₂ := .f32) Cert.ReferenceIdeal.dot_S50000x64_S64x64_S50000x64_1_0_0_1_n_n none x w i
      = ∑ k : Fin 64, x (lidx_whole i k) * w (ridx_whole i k) := by
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx i ((ValueIdx.contrEquiv1 Cert.ReferenceIdeal.dot_S50000x64_S64x64_S50000x64_1_0_0_1_n_n 64 rfl rfl).symm k) = lidx_whole i k := funext fun a => Fin.ext (by
    match a with
    | ⟨0, _⟩ => exact lhs_whole_dot_0 _ _
    | ⟨1, _⟩ => exact (lhs_whole_dot_1 _ _).trans hk)
  have er : Cert.ReferenceIdeal.dot_S50000x64_S64x64_S50000x64_1_0_0_1_n_n.rhsIdx i ((ValueIdx.contrEquiv1 Cert.ReferenceIdeal.dot_S50000x64_S64x64_S50000x64_1_0_0_1_n_n 64 rfl rfl).symm k) = ridx_whole i k := funext fun a => Fin.ext (by
    match a with
    | ⟨0, _⟩ => exact (rhs_whole_dot_0 _ _).trans hk
    | ⟨1, _⟩ => exact rhs_whole_dot_1 _ _)
  rw [el, er]

/-- The bias row repeated down the 50000 rows reads, at (r, q), the row's entry q. -/
theorem bias_whole_apply (b : (⟨S1x64, .f32⟩ : BufTy).Contents (Elt Ideal)) (i : S50000x64.Idx) :
    broadcastInDim Cert.ReferenceIdeal.S50000x64 ![0, 1] Cert.ReferenceIdeal.Gen.bcast_S1x64_S50000x64_0_1 b i = b (bidx_whole i) :=
  broadcastInDim_apply _ Cert.ReferenceIdeal.Gen.bcast_S1x64_S50000x64_0_1 b i (bidx_whole i) (fun a => match a with
    | ⟨0, _⟩ => by show (0 : Nat) = if (1 : Nat) = 1 then 0 else _; rw [if_pos rfl]
    | ⟨1, _⟩ => by show (i 1).val = if (64 : Nat) = 1 then 0 else (i 1).val; rw [if_neg (by decide)])

/-- The zero constant repeated over the whole array is zero at every index. -/
theorem zero_whole_apply (i : S50000x64.Idx) :
    broadcastInDim Cert.ReferenceIdeal.S50000x64 ![] Cert.ReferenceIdeal.Gen.bcast_S_S50000x64 (constant (F := Ideal) Cert.ReferenceIdeal.S_ .f32 0x00000000#32) i = 0 := by
  rw [broadcastInDim_apply _ Cert.ReferenceIdeal.Gen.bcast_S_S50000x64 _ i (fun a => a.elim0) (fun a => a.elim0), ValueIdx.constant_apply, Ideal.ofBits_zero_f32]

/-- The reference's layer at entry (r, q). -/
theorem conv64_apply (A h : (⟨S50000x64, .f32⟩ : BufTy).Contents (Elt Ideal)) (W : (⟨S64x64, .f32⟩ : BufTy).Contents (Elt Ideal))
    (b : (⟨S1x64, .f32⟩ : BufTy).Contents (Elt Ideal)) (W' : (⟨S64x64, .f32⟩ : BufTy).Contents (Elt Ideal)) (i : S50000x64.Idx) :
    Cert.Net.conv64 (F := Ideal) A h W b W' i
      = max ((∑ k : Fin 64, A (lidx_whole i k) * W (ridx_whole i k) + b (bidx_whole i))
          + ∑ k : Fin 64, h (lidx_whole i k) * W' (ridx_whole i k)) 0 := by
  unfold Cert.Net.conv64
  rw [ValueIdx.maximumf_apply, ValueIdx.addf_apply, ValueIdx.addf_apply, whole_dot_apply, whole_dot_apply, bias_whole_apply, zero_whole_apply]

/-! ## From the 25 blocks to the whole array -/

theorem zero_offsets : (![0, 0] : Fin 2 → Nat) = fun _ => 0 := funext fun a => by fin_cases a <;> rfl

/-- The printed index maps, decided over the 25 grid points: the two row-blocked inputs move with the output down the
    rows and stay at column block 0; the weights and the bias row stay at block (0, 0); the output's row block is at
    most 24 and its column block 0. -/
theorem index_facts : ∀ t : Fin cfg2.N, win2_0.index t (0 : Fin 2) = win2_5.index t (0 : Fin 2) + 0
    ∧ win2_0.index t (1 : Fin 2) = win2_5.index t (1 : Fin 2) + 0
    ∧ win2_1.index t (0 : Fin 2) = win2_5.index t (0 : Fin 2) + 0
    ∧ win2_1.index t (1 : Fin 2) = win2_5.index t (1 : Fin 2) + 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ 0 ≤ win2_5.index t (0 : Fin 2) ∧ win2_5.index t (0 : Fin 2) ≤ 24
    ∧ 0 ≤ win2_5.index t (1 : Fin 2) ∧ win2_5.index t (1 : Fin 2) ≤ 0 :=
  (by decide +kernel : ∀ t : Fin grid2.N, _)

/-- Every row block is SOME point's. -/
theorem index_onto : ∀ (q0 : Fin 25) (q1 : Fin 1), ∃ t : Fin cfg2.N, win2_5.index t = ![q0.val + 0, q1.val + 0] :=
  (by decide +kernel : ∀ (q0 : Fin 25) (q1 : Fin 1), ∃ t : Fin grid2.N, win2_5.index t = ![q0.val + 0, q1.val + 0])

/-- WHAT POINT `t` WRITES BACK is block `t` of the layer computed on the whole arrays the region is entered with. -/
theorem flushed_eq (c : Dev nD) (t : Fin cfg2.N) :
    (dat2 (F := Ideal) V c).flushed 5 t = ((cfg2.win 5).blk t).view.read (Elt Ideal)
      (Cert.Net.conv64 (F := Ideal) (V c main_v37) (V c main_v27) (V c main_arg9) (V c main_v38) (V c main_arg11)) := by
  show (cfg2.win 5).cut (grid2.coords t) ((dat2 V c).after 5 t) = _
  rw [after2_5]
  unfold out2_5
  rw [View.canon_unit_zero zero_offsets]
  simp only [View.ld_unit_zero (S := S2000x64) zero_offsets, View.ld_unit_zero (S := S64x64) zero_offsets, View.ld_unit_zero (S := S1x64) zero_offsets]
  obtain ⟨e00, e01, e10, e11, e20, e21, e30, e31, e40, e41, l0, u0, l1, u1⟩ := index_facts t
  funext y
  show k2_pay1 (F := Ideal) (iblk2 V c 0 t) (iblk2 V c 1 t) (iblk2 V c 2 t) (iblk2 V c 4 t) (iblk2 V c 3 t) y
    = Cert.Net.conv64 (F := Ideal) (V c main_v37) (V c main_v27) (V c main_arg9) (V c main_v38) (V c main_arg11) (((cfg2.win 5).blk t).view.emb y)
  rw [pay_apply, conv64_apply]
  -- each input block read where the output's rectangle says
  have hA : ∀ k : Fin 64, iblk2 V c 0 t (lidx_block y k) = V c main_v37 (lidx_whole (((cfg2.win 5).blk t).view.emb y) k) := fun k => by
    show V c main_v37 (((cfg2.win 0).blk t).view.emb (lidx_block y k)) = V c main_v37 (lidx_whole (((cfg2.win 5).blk t).view.emb y) k)
    refine congrArg _ (funext fun a => Fin.ext ?_)
    match a with
    | ⟨0, _⟩ => show win2_0.index t (0 : Fin 2) * 2000 + 1 * (y 0).val = win2_5.index t (0 : Fin 2) * 2000 + 1 * (y 0).val; omega
    | ⟨1, _⟩ => show win2_0.index t (1 : Fin 2) * 64 + 1 * k.val = k.val; omega
  have hh : ∀ k : Fin 64, iblk2 V c 1 t (lidx_block y k) = V c main_v27 (lidx_whole (((cfg2.win 5).blk t).view.emb y) k) := fun k => by
    show V c main_v27 (((cfg2.win 1).blk t).view.emb (lidx_block y k)) = V c main_v27 (lidx_whole (((cfg2.win 5).blk t).view.emb y) k)
    refine congrArg _ (funext fun a => Fin.ext ?_)
    match a with
    | ⟨0, _⟩ => show win2_1.index t (0 : Fin 2) * 2000 + 1 * (y 0).val = win2_5.index t (0 : Fin 2) * 2000 + 1 * (y 0).val; omega
    | ⟨1, _⟩ => show win2_1.index t (1 : Fin 2) * 64 + 1 * k.val = k.val; omega
  have hW : ∀ k : Fin 64, iblk2 V c 2 t (ridx_block y k) = V c main_arg9 (ridx_whole (((cfg2.win 5).blk t).view.emb y) k) := fun k => by
    show V c main_arg9 (((cfg2.win 2).blk t).view.emb (ridx_block y k)) = V c main_arg9 (ridx_whole (((cfg2.win 5).blk t).view.emb y) k)
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * (y 1).val = win2_5.index t (1 : Fin 2) * 64 + 1 * (y 1).val; omega
  have hW' : ∀ k : Fin 64, iblk2 V c 4 t (ridx_block y k) = V c main_arg11 (ridx_whole (((cfg2.win 5).blk t).view.emb y) k) := fun k => by
    show V c main_arg11 (((cfg2.win 4).blk t).view.emb (ridx_block y k)) = V c main_arg11 (ridx_whole (((cfg2.win 5).blk t).view.emb y) k)
    refine congrArg _ (funext fun a => Fin.ext ?_)
    match a with
    | ⟨0, _⟩ => show win2_4.index t (0 : Fin 2) * 64 + 1 * k.val = k.val; omega
    | ⟨1, _⟩ => show win2_4.index t (1 : Fin 2) * 64 + 1 * (y 1).val = win2_5.index t (1 : Fin 2) * 64 + 1 * (y 1).val; omega
  have hb : iblk2 V c 3 t (bidx_block y) = V c main_v38 (bidx_whole (((cfg2.win 5).blk t).view.emb y)) := by
    show V c main_v38 (((cfg2.win 3).blk t).view.emb (bidx_block y)) = V c main_v38 (bidx_whole (((cfg2.win 5).blk t).view.emb y))
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * (y 1).val = win2_5.index t (1 : Fin 2) * 64 + 1 * (y 1).val; omega
  simp only [hA, hW, hh, hW', hb]

/-- An index of the array is in point `t`'s block iff each coordinate is in the block's range on its axis. -/
theorem mem_block (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v39).slice (win2_5.rect t)).set ↔ _
  rw [View.set_slice_whole, Rect.mem_set_unit]
  exact Iff.rfl

/-- The 25 blocks of 2000 rows tile the 50000 rows: row r is in the block of point r / 2000. -/
theorem covered (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := index_onto ⟨(i 0).val / 2000 - 0, by omega⟩ ⟨(i 1).val / 64 - 0, by omega⟩
  have q0 : win2_5.index t (0 : Fin 2) = (i 0).val / 2000 - 0 + 0 := congrFun ht 0
  have q1 : win2_5.index t (1 : Fin 2) = (i 1).val / 64 - 0 + 0 := congrFun ht 1
  refine ⟨t, flush2_5 t, ?_⟩
  rw [mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- After region 2 its output array holds the dense part of the third layer of the arrays at entry. -/
theorem region2 (c : Dev nD) :
    (dat2 (F := Ideal) V c).arrAt 5 cfg2.N
      = Cert.Net.conv64 (F := Ideal) (V c main_v37) (V c main_v27) (V c main_arg9) (V c main_v38) (V c main_arg11) :=
  (dat2 (F := Ideal) V c).arrAt_eq_of_cover 5 _ (fun t _ => flushed_eq V c t) covered

end Cert.KernelIdeal.RegionValue2

end
-- ==== Proof.Region3.lean ====
/-
  Region 3 of the program, on exact extended reals: the output array after the call is one whole-array function of
  the arrays the region is entered with.

  The call has one grid point and stages every operand whole: the per-graph sums S (512 × 64), the per-graph counts n
  (512 × 1), W1 (64 × 32), the row b1 (1 × 32), W2 (32 × 1) and b2 (1 × 1). Its body computes
      p = S / max(n, 1)  (the count repeated along each row),   u = max(p · W1 + b1, 0),   out = u · W2 + b2,
  the narrowings to bf16 the identity on exact values and each product into a zero accumulator the plain sum over the
  contracted axis: the same sums the whole-array products take. The single block is the whole 512 × 1 output.
-/
import proofs.«123539_j15650860827313_1_alg».proof.Proof.KernelIdealFrameP
import proofs.«123539_j15650860827313_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue3

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-! ## The layout operations of the two programs, compared as whole functions

Each repeat of a column, a row or a single cell over a larger shape reads its operand at the same place in both
spellings (a broadcast along the trailing axes in the kernel, a broadcast over named axes on the host). -/

/-- Where row r of a 512 × 64 array reads a 512 × 1 column: at (r, 0). -/
abbrev colIdx (j : S512x64.Idx) : S512x1.Idx := fun a => match a with
  | ⟨0, _⟩ => ⟨(j 0).val, (j 0).isLt⟩
  | ⟨1, _⟩ => ⟨0, Nat.one_pos⟩

/-- Where column m of a 512 × 32 array reads a 1 × 32 row: at (0, m). -/
abbrev rowIdx (j : S512x32.Idx) : S1x32.Idx := fun a => match a with
  | ⟨0, _⟩ => ⟨0, Nat.one_pos⟩
  | ⟨1, _⟩ => ⟨(j 1).val, (j 1).isLt⟩

/-- The one cell of a 1 × 1 array. -/
abbrev cellIdx : S1x1.Idx := fun a => match a with
  | ⟨0, _⟩ => ⟨0, Nat.one_pos⟩
  | ⟨1, _⟩ => ⟨0, Nat.one_pos⟩

/-- A 512 × 1 column repeated along each row of 512 × 64. -/
theorem col_repeat {α : Type} (v : S512x1.Idx → α) :
    broadcastTo S512x64 v broadcasts_S512x1_S512x64
      = broadcastInDim Cert.ReferenceIdeal.S512x64 ![0, 1] Cert.ReferenceIdeal.Gen.bcast_S512x1_S512x64_0_1 v := by
  funext j
  exact (broadcastTo_apply v broadcasts_S512x1_S512x64 j (colIdx j) (fun a => match a with
      | ⟨0, _⟩ => by show (j 0).val = if (512 : Nat) = 1 then 0 else (j 0).val; rw [if_neg (by decide)]
      | ⟨1, _⟩ => by show 0 = if (1 : Nat) = 1 then 0 else (j 1).val; rw [if_pos rfl])).trans
    (broadcastInDim_apply _ Cert.ReferenceIdeal.Gen.bcast_S512x1_S512x64_0_1 v j (colIdx j) (fun a => match a with
      | ⟨0, _⟩ => by show (j 0).val = if (512 : Nat) = 1 then 0 else (j 0).val; rw [if_neg (by decide)]
      | ⟨1, _⟩ => by show 0 = if (1 : Nat) = 1 then 0 else (j 1).val; rw [if_pos rfl])).symm

/-- A 1 × 32 row repeated down the 512 rows of 512 × 32. -/
theorem row_repeat {α : Type} (v : S1x32.Idx → α) :
    broadcastTo S512x32 v broadcasts_S1x32_S512x32
      = broadcastInDim Cert.ReferenceIdeal.S512x32 ![0, 1] Cert.ReferenceIdeal.Gen.bcast_S1x32_S512x32_0_1 v := by
  funext j
  exact (broadcastTo_apply v broadcasts_S1x32_S512x32 j (rowIdx j) (fun a => match a with
      | ⟨0, _⟩ => by show 0 = if (1 : Nat) = 1 then 0 else (j 0).val; rw [if_pos rfl]
      | ⟨1, _⟩ => by show (j 1).val = if (32 : Nat) = 1 then 0 else (j 1).val; rw [if_neg (by decide)])).trans
    (broadcastInDim_apply _ Cert.ReferenceIdeal.Gen.bcast_S1x32_S512x32_0_1 v j (rowIdx j) (fun a => match a with
      | ⟨0, _⟩ => by show 0 = if (1 : Nat) = 1 then 0 else (j 0).val; rw [if_pos rfl]
      | ⟨1, _⟩ => by show (j 1).val = if (32 : Nat) = 1 then 0 else (j 1).val; rw [if_neg (by decide)])).symm

/-- A single cell repeated down a 512 × 1 column. -/
theorem cell_repeat {α : Type} (v : S1x1.Idx → α) :
    broadcastTo S512x1 v broadcasts_S1x1_S512x1
      = broadcastInDim Cert.ReferenceIdeal.S512x1 ![0, 1] Cert.ReferenceIdeal.Gen.bcast_S1x1_S512x1_0_1 v := by
  funext j
  exact (broadcastTo_apply v broadcasts_S1x1_S512x1 j cellIdx (fun a => match a with
      | ⟨0, _⟩ => by show 0 = if (1 : Nat) = 1 then 0 else (j 0).val; rw [if_pos rfl]
      | ⟨1, _⟩ => by show 0 = if (1 : Nat) = 1 then 0 else (j 1).val; rw [if_pos rfl])).trans
    (broadcastInDim_apply _ Cert.ReferenceIdeal.Gen.bcast_S1x1_S512x1_0_1 v j cellIdx (fun a => match a with
      | ⟨0, _⟩ => by show 0 = if (1 : Nat) = 1 then 0 else (j 0).val; rw [if_pos rfl]
      | ⟨1, _⟩ => by show 0 = if (1 : Nat) = 1 then 0 else (j 1).val; rw [if_pos rfl])).symm

/-- A scalar splat over 512 × 1: the kernel's splat of a scalar and the host's broadcast of a rank-0 constant. -/
theorem splat_col (b : BitVec 32) :
    broadcast S512x1 (Scalar.ofBits (F := Ideal) .f32 b)
      = broadcastInDim Cert.ReferenceIdeal.S512x1 ![] Cert.ReferenceIdeal.Gen.bcast_S_S512x1 (constant (F := Ideal) Cert.ReferenceIdeal.S_ .f32 b) := by
  funext j
  exact (broadcastInDim_apply _ Cert.ReferenceIdeal.Gen.bcast_S_S512x1 (constant (F := Ideal) Cert.ReferenceIdeal.S_ .f32 b) j (fun a => a.elim0) (fun a => a.elim0)).symm

/-- The same over 512 × 32. -/
theorem splat_hid (b : BitVec 32) :
    broadcast S512x32 (Scalar.ofBits (F := Ideal) .f32 b)
      = broadcastInDim Cert.ReferenceIdeal.S512x32 ![] Cert.ReferenceIdeal.Gen.bcast_S_S512x32 (constant (F := Ideal) Cert.ReferenceIdeal.S_ .f32 b) := by
  funext j
  exact (broadcastInDim_apply _ Cert.ReferenceIdeal.Gen.bcast_S_S512x32 (constant (F := Ideal) Cert.ReferenceIdeal.S_ .f32 b) j (fun a => a.elim0) (fun a => a.elim0)).symm

/-! ## The two products

The kernel's and the host program's contraction records are the same record; a product into a zero accumulator, its
operands narrowed to bf16 (the identity on exact values), is the host's product: the same sum over the contracted
axis, term by term. -/

theorem recs1 : Cert.KernelIdeal.dot_S512x64_S64x32_S512x32_1_0_0_1_n_n = Cert.ReferenceIdeal.dot_S512x64_S64x32_S512x32_1_0_0_1_n_n := rfl
theorem recs2 : Cert.KernelIdeal.dot_S512x32_S32x1_S512x1_1_0_0_1_n_n = Cert.ReferenceIdeal.dot_S512x32_S32x1_S512x1_1_0_0_1_n_n := rfl

/-- p · W1: 512 × 64 by 64 × 32. -/
theorem mm1_eq (l : FVec Ideal S512x64 .f32) (r : FVec Ideal S64x32 .f32) :
    matmul (F := Ideal) dot_S512x64_S64x32_S512x32_1_0_0_1_n_n none (truncf .bf16 l bitsLt_bf16_f32) (truncf .bf16 r bitsLt_bf16_f32) (constant S512x32 .f32 0x00000000#32)
      = Host.dotGeneral (F := Ideal) Cert.ReferenceIdeal.dot_S512x64_S64x32_S512x32_1_0_0_1_n_n none l r := by
  funext j
  simp only [matmul, Host.dotGeneral]
  rw [Ideal.matmul_constant_zero_apply, Ideal.dotGeneral_apply, ← recs1]
  rfl

/-- u · W2: 512 × 32 by 32 × 1. -/
theorem mm2_eq (l : FVec Ideal S512x32 .f32) (r : FVec Ideal S32x1 .f32) :
    matmul (F := Ideal) dot_S512x32_S32x1_S512x1_1_0_0_1_n_n none (truncf .bf16 l bitsLt_bf16_f32) (truncf .bf16 r bitsLt_bf16_f32) (constant S512x1 .f32 0x00000000#32)
      = Host.dotGeneral (F := Ideal) Cert.ReferenceIdeal.dot_S512x32_S32x1_S512x1_1_0_0_1_n_n none l r := by
  funext j
  simp only [matmul, Host.dotGeneral]
  rw [Ideal.matmul_constant_zero_apply, Ideal.dotGeneral_apply, ← recs2]
  rfl

/-- On exact values the kernel's quotient and the host's are the same quotient, element by element. -/
theorem div_eq (a b : FVec Ideal S512x64 .f32) : divf a b = Host.divf (F := Ideal) a b := rfl

/-! ## The body's arithmetic is the head -/

/-- The body's one stored value, of the blocks it loads (counts first, then sums, W1, b1, W2, b2), is mean pooling
    followed by the perceptron of them. -/
theorem pay_eq (x1 : Vec Ideal S512x1 .f32) (x0 : Vec Ideal S512x64 .f32) (x2 : Vec Ideal S64x32 .f32) (x3 : Vec Ideal S1x32 .f32)
    (x4 : Vec Ideal S32x1 .f32) (x5 : Vec Ideal S1x1 .f32) :
    k3_pay1 (F := Ideal) x1 x0 x2 x3 x4 x5 = Cert.Net.head (F := Ideal) x0 x1 x2 x3 x4 x5 := by
  unfold k3_pay1 Cert.Net.head
  simp only [shapeCast_self]
  rw [mm2_eq, mm1_eq, col_repeat, row_repeat, cell_repeat, splat_col, splat_hid]
  rw [div_eq]

/-! ## From the one block to the array

The call has one grid point and every window's index map is constantly (0, 0), so each block sits in its array at
0 × size + coordinate: the block is the array. -/

theorem zero_off : (![0, 0] : Fin 2 → Nat) = fun _ => 0 := funext fun a => by fin_cases a <;> rfl

/-- The printed index maps, decided over the grid: every window's block index is (0, 0). -/
theorem idx_zero0 : ∀ t : Fin cfg3.N, win3_0.index t (0 : Fin 2) = 0 ∧ win3_0.index t (1 : Fin 2) = 0 :=
  (by decide +kernel : ∀ t : Fin grid3.N, _)
theorem idx_zero1 : ∀ t : Fin cfg3.N, win3_1.index t (0 : Fin 2) = 0 ∧ win3_1.index t (1 : Fin 2) = 0 :=
  (by decide +kernel : ∀ t : Fin grid3.N, _)
theorem idx_zero2 : ∀ t : Fin cfg3.N, win3_2.index t (0 : Fin 2) = 0 ∧ win3_2.index t (1 : Fin 2) = 0 :=
  (by decide +kernel : ∀ t : Fin grid3.N, _)
theorem idx_zero3 : ∀ t : Fin cfg3.N, win3_3.index t (0 : Fin 2) = 0 ∧ win3_3.index t (1 : Fin 2) = 0 :=
  (by decide +kernel : ∀ t : Fin grid3.N, _)
theorem idx_zero4 : ∀ t : Fin cfg3.N, win3_4.index t (0 : Fin 2) = 0 ∧ win3_4.index t (1 : Fin 2) = 0 :=
  (by decide +kernel : ∀ t : Fin grid3.N, _)
theorem idx_zero5 : ∀ t : Fin cfg3.N, win3_5.index t (0 : Fin 2) = 0 ∧ win3_5.index t (1 : Fin 2) = 0 :=
  (by decide +kernel : ∀ t : Fin grid3.N, _)
theorem idx_zero6 : ∀ t : Fin cfg3.N, win3_6.index t (0 : Fin 2) = 0 ∧ win3_6.index t (1 : Fin 2) = 0 :=
  (by decide +kernel : ∀ t : Fin grid3.N, _)

/-- Window 0's one block is its whole array. -/
theorem blk0 (c : Dev nD) (t : Fin cfg3.N) : (iblk3 V c 0 t : Vec Ideal S512x64 .f32) = V c main_v42 := by
  obtain ⟨e0, e1⟩ := idx_zero0 t
  funext j
  show V c main_v42 (((cfg3.win 0).blk t).view.emb j) = V c main_v42 j
  refine congrArg (V c main_v42) (funext fun a => Fin.ext ?_)
  match a with
  | ⟨0, _⟩ => show win3_0.index t (0 : Fin 2) * 512 + 1 * (j 0).val = (j 0).val; omega
  | ⟨1, _⟩ => show win3_0.index t (1 : Fin 2) * 64 + 1 * (j 1).val = (j 1).val; omega

/-- Window 1's one block is its whole array. -/
theorem blk1 (c : Dev nD) (t : Fin cfg3.N) : (iblk3 V c 1 t : Vec Ideal S512x1 .f32) = V c main_v46 := by
  obtain ⟨e0, e1⟩ := idx_zero1 t
  funext j
  show V c main_v46 (((cfg3.win 1).blk t).view.emb j) = V c main_v46 j
  refine congrArg (V c main_v46) (funext fun a => Fin.ext ?_)
  match a with
  | ⟨0, _⟩ => show win3_1.index t (0 : Fin 2) * 512 + 1 * (j 0).val = (j 0).val; omega
  | ⟨1, _⟩ => show win3_1.index t (1 : Fin 2) * 1 + 1 * (j 1).val = (j 1).val; omega

/-- Window 2's one block is its whole array. -/
theorem blk2 (c : Dev nD) (t : Fin cfg3.N) : (iblk3 V c 2 t : Vec Ideal S64x32 .f32) = V c main_arg12 := by
  obtain ⟨e0, e1⟩ := idx_zero2 t
  funext j
  show V c main_arg12 (((cfg3.win 2).blk t).view.emb j) = V c main_arg12 j
  refine congrArg (V c main_arg12) (funext fun a => Fin.ext ?_)
  match a with
  | ⟨0, _⟩ => show win3_2.index t (0 : Fin 2) * 64 + 1 * (j 0).val = (j 0).val; omega
  | ⟨1, _⟩ => show win3_2.index t (1 : Fin 2) * 32 + 1 * (j 1).val = (j 1).val; omega

/-- Window 3's one block is its whole array. -/
theorem blk3 (c : Dev nD) (t : Fin cfg3.N) : (iblk3 V c 3 t : Vec Ideal S1x32 .f32) = V c main_v47 := by
  obtain ⟨e0, e1⟩ := idx_zero3 t
  funext j
  show V c main_v47 (((cfg3.win 3).blk t).view.emb j) = V c main_v47 j
  refine congrArg (V c main_v47) (funext fun a => Fin.ext ?_)
  match a with
  | ⟨0, _⟩ => show win3_3.index t (0 : Fin 2) * 1 + 1 * (j 0).val = (j 0).val; omega
  | ⟨1, _⟩ => show win3_3.index t (1 : Fin 2) * 32 + 1 * (j 1).val = (j 1).val; omega

/-- Window 4's one block is its whole array. -/
theorem blk4 (c : Dev nD) (t : Fin cfg3.N) : (iblk3 V c 4 t : Vec Ideal S32x1 .f32) = V c main_arg14 := by
  obtain ⟨e0, e1⟩ := idx_zero4 t
  funext j
  show V c main_arg14 (((cfg3.win 4).blk t).view.emb j) = V c main_arg14 j
  refine congrArg (V c main_arg14) (funext fun a => Fin.ext ?_)
  match a with
  | ⟨0, _⟩ => show win3_4.index t (0 : Fin 2) * 32 + 1 * (j 0).val = (j 0).val; omega
  | ⟨1, _⟩ => show win3_4.index t (1 : Fin 2) * 1 + 1 * (j 1).val = (j 1).val; omega

/-- Window 5's one block is its whole array. -/
theorem blk5 (c : Dev nD) (t : Fin cfg3.N) : (iblk3 V c 5 t : Vec Ideal S1x1 .f32) = V c main_v48 := by
  obtain ⟨e0, e1⟩ := idx_zero5 t
  funext j
  show V c main_v48 (((cfg3.win 5).blk t).view.emb j) = V c main_v48 j
  refine congrArg (V c main_v48) (funext fun a => Fin.ext ?_)
  match a with
  | ⟨0, _⟩ => show win3_5.index t (0 : Fin 2) * 1 + 1 * (j 0).val = (j 0).val; omega
  | ⟨1, _⟩ => show win3_5.index t (1 : Fin 2) * 1 + 1 * (j 1).val = (j 1).val; omega

/-- An element of the output's block sits in the output array at its own coordinates. -/
theorem out_emb (t : Fin cfg3.N) (y : ((cfg3.win 6).xblock (cfg3.grid.coords t)).Idx) : ((cfg3.win 6).blk t).view.emb y = y := by
  obtain ⟨e0, e1⟩ := idx_zero6 t
  funext a; apply Fin.ext
  match a with
  | ⟨0, _⟩ => show win3_6.index t (0 : Fin 2) * 512 + 1 * (y 0).val = (y 0).val; omega
  | ⟨1, _⟩ => show win3_6.index t (1 : Fin 2) * 1 + 1 * (y 1).val = (y 1).val; omega

/-- WHAT THE POINT WRITES BACK is the block of the head of the arrays the region is entered with. -/
theorem flushed_eq (c : Dev nD) (t : Fin cfg3.N) :
    (dat3 (F := Ideal) V c).flushed 6 t = ((cfg3.win 6).blk t).view.read (Elt Ideal)
      (Cert.Net.head (F := Ideal) (V c main_v42) (V c main_v46) (V c main_arg12) (V c main_v47) (V c main_arg14) (V c main_v48)) := by
  show (cfg3.win 6).cut (grid3.coords t) ((dat3 V c).after 6 t) = _
  rw [after3_6]
  unfold out3_6
  rw [View.canon_unit_zero zero_off]
  simp only [View.ld_unit_zero (S := S512x1) zero_off, View.ld_unit_zero (S := S512x64) zero_off, View.ld_unit_zero (S := S64x32) zero_off, View.ld_unit_zero (S := S1x32) zero_off, View.ld_unit_zero (S := S32x1) zero_off, View.ld_unit_zero (S := S1x1) zero_off]
  rw [blk0, blk1, blk2, blk3, blk4, blk5, pay_eq]
  funext y
  show Cert.Net.head (F := Ideal) (V c main_v42) (V c main_v46) (V c main_arg12) (V c main_v47) (V c main_arg14) (V c main_v48) y
    = Cert.Net.head (F := Ideal) (V c main_v42) (V c main_v46) (V c main_arg12) (V c main_v47) (V c main_arg14) (V c main_v48) (((cfg3.win 6).blk t).view.emb y)
  rw [out_emb]

/-- An index of the output array is in the point's block iff each coordinate is in the block's range on its axis. -/
theorem mem_blk (t : Fin cfg3.N) (i : S512x1.Idx) :
    i ∈ ((cfg3.win 6).blk t).view.set ↔ ∀ a : Fin 2, win3_6.index t a * S512x1.size a ≤ (i a).val ∧ (i a).val < win3_6.index t a * S512x1.size a + S512x1.size a := by
  show i ∈ ((View.whole main_v49).slice (win3_6.rect t)).set ↔ _
  rw [View.set_slice_whole, Rect.mem_set_unit]
  exact Iff.rfl

/-- Every index of the output array is in the one point's block. -/
theorem covered (i : S512x1.Idx) : ∃ t : Fin cfg3.N, (cfg3.win 6).flush t = true ∧ i ∈ ((cfg3.win 6).blk t).view.set := by
  refine ⟨t3_0, flush3_6 t3_0, ?_⟩
  rw [mem_blk]
  obtain ⟨e0, e1⟩ := idx_zero6 t3_0
  have hi0 : (i 0).val < 512 := (i 0).isLt
  have hi1 : (i 1).val < 1 := (i 1).isLt
  intro a
  match a with
  | ⟨0, _⟩ => show win3_6.index t3_0 (0 : Fin 2) * 512 ≤ (i 0).val ∧ (i 0).val < win3_6.index t3_0 (0 : Fin 2) * 512 + 512; omega
  | ⟨1, _⟩ => show win3_6.index t3_0 (1 : Fin 2) * 1 ≤ (i 1).val ∧ (i 1).val < win3_6.index t3_0 (1 : Fin 2) * 1 + 1; omega

/-- After region 3 its output array holds mean pooling followed by the perceptron, of the arrays at entry. -/
theorem region3 (c : Dev nD) :
    (dat3 (F := Ideal) V c).arrAt 6 cfg3.N
      = Cert.Net.head (F := Ideal) (V c main_v42) (V c main_v46) (V c main_arg12) (V c main_v47) (V c main_arg14) (V c main_v48) :=
  (dat3 (F := Ideal) V c).arrAt_eq_of_cover 6 _ (fun t _ => flushed_eq V c t) covered

end Cert.KernelIdeal.RegionValue3

end
-- ==== Proof.lean ====
/-
  The certificate of a three-layer graph-convolution network with mean pooling and a two-layer perceptron, computed
  by four pipelined TensorCore calls among host operations, against the same network written directly with host
  operations, over the extended reals.

  Both programs aggregate with the same host operations: for every layer the rows of the current node features at the
  edges' source nodes are gathered and added, from zero, into the rows of their destination nodes; after the third
  layer the node rows are added into their graphs' rows, and a column of ones likewise gives the graphs' node counts.
  They differ in the dense part of each layer, max((A · W_rel + b) + h · W_root, 0), and in the head, max(p · W1 + b1,
  0) · W2 + b2 with p = sums / max(counts, 1). The reference takes whole-array products; the kernel's program takes
  them 2000 rows at a time (25 grid points a layer), its operands narrowed to bf16 and multiplied into a zero
  accumulator, and takes the head in one call of one grid point. On exact values the narrowing is the identity and a
  product into zero is the plain sum over the contracted axis; a row of the product of a block of rows is that row of
  the product of the whole matrix; so each call's output array is the whole-array expression the reference computes
  (Region0 … Region3), with the very same sums term by term: no rearrangement, hence no use of the inputs' finiteness.

  The run of the kernel's program is a fold of buffer contents through its nine segments; read back from the result
  buffer (HostFold) it is the network `Cert.Net.net` of the sixteen arguments, and the reference's run is that same
  composition operation for operation (RefNet). The three frames are the programs' runs with the results dropped; the
  idealization rewrote no operation, so the preservation claim is empty.
-/
import proofs.«123539_j15650860827313_1_alg».proof.Defs
import proofs.«123539_j15650860827313_1_alg».proof.Proof.Gen.Kernel
import proofs.«123539_j15650860827313_1_alg».proof.Proof.Gen.KernelIdeal
import proofs.«123539_j15650860827313_1_alg».proof.Proof.Gen.ReferenceIdeal
import proofs.«123539_j15650860827313_1_alg».proof.Proof.Gen.Pre_finite_inputs
import proofs.«123539_j15650860827313_1_alg».proof.Proof.KernelFrameP
import proofs.«123539_j15650860827313_1_alg».proof.Proof.KernelIdealRun
import proofs.«123539_j15650860827313_1_alg».proof.Proof.Gen.ReferenceIdeal.Run
import proofs.«123539_j15650860827313_1_alg».proof.Proof.RefNet
import proofs.«123539_j15650860827313_1_alg».proof.Proof.HostFold
import proofs.«123539_j15650860827313_1_alg».proof.Proof.Region0
import proofs.«123539_j15650860827313_1_alg».proof.Proof.Region1
import proofs.«123539_j15650860827313_1_alg».proof.Proof.Region2
import proofs.«123539_j15650860827313_1_alg».proof.Proof.Region3
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no pipelined call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the arguments in their result buffers: the kernel's program by its host
    fold over the four calls' whole-array values, the reference operation for operation; on memories that agree on the
    sixteen arguments the two networks are one term. -/
theorem algebraic : Cert.algebraic_KernelIdeal_ReferenceIdeal := by
  intro m ρ m' ρ' _ hagree
  refine ⟨fun c => Cert.Net.net (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.KernelIdeal.HostFold.result_eq_net m ρ c Cert.KernelIdeal.RegionValue0.region0 Cert.KernelIdeal.RegionValue1.region1 Cert.KernelIdeal.RegionValue2.region2 Cert.KernelIdeal.RegionValue3.region3), (h c).2⟩)
      (Cert.KernelIdeal.Gen.run_result (F := Ideal) m ρ)
  · refine (θ_run Cert.ReferenceIdeal.defs _ _).mono
      (fun _ h c => ⟨(h c).1.trans ((Cert.ReferenceIdeal.RefNet.result_eq_net (F := Ideal) m' c).trans ?_), (h c).2⟩)
      (Cert.ReferenceIdeal.Value.run (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
